-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x240x320x8 : Shape := ⟨4, ![4, 240, 320, 8]⟩
abbrev S4x240x320x8x3 : Shape := ⟨5, ![4, 240, 320, 8, 3]⟩
abbrev S256x256x256 : Shape := ⟨3, ![256, 256, 256]⟩
abbrev S_ : Shape := ⟨0, ![]⟩

class Facts : Prop where
  bcast_S_S4x240x320x8 : S_.BroadcastsInDim S4x240x320x8 (![] : Fin 0 → Fin S4x240x320x8.rank)
  reducesTo_S4x240x320x8_S_d0_1_2_3 : S4x240x320x8.ReducesTo [0, 1, 2, 3] S_
  h_S_ : 0 < S_.numel
  bcast_S_S256x256x256 : S_.BroadcastsInDim S256x256x256 (![] : Fin 0 → Fin S256x256x256.rank)
  reducesTo_S256x256x256_S_d0_1_2 : S256x256x256.ReducesTo [0, 1, 2] S_

variable [Facts]

def fn_part1 {F : FTy → Type} [FloatOps F] (main_v13 : IVec S_ 1) (main_v16 : IVec S256x256x256 1) : IVec S_ 1 :=
  let main_c_5 : IVec S_ 1 := constantI S_ 1 1#1
  let main_v17 : IVec S_ 1 := (fun x v => Host.reduce IntOp.andi x v reducesTo_S256x256x256_S_d0_1_2 h_S_) main_v16 main_c_5
  let main_v18 : IVec S_ 1 := andi main_v13 main_v17
  main_v18

def fn {F : FTy → Type} [FloatOps F] (main_arg0 : FVec F S4x240x320x8 .f32) (main_arg1 : FVec F S4x240x320x8 .f32) (main_arg2 : IVec S4x240x320x8x3 32) (main_arg3 : FVec F S256x256x256 .f32) (main_arg4 : FVec F S256x256x256 .f32) : IVec S_ 1 :=
  let main_v0 : FVec F S4x240x320x8 .f32 := Host.absf main_arg0
  let main_cst : FVec F S_ .f32 := constant S_ .f32 0x7F800000#32
  let main_v1 : FVec F S4x240x320x8 .f32 := broadcastInDim S4x240x320x8 ![] bcast_S_S4x240x320x8 main_cst
  let main_v2 : IVec S4x240x320x8 1 := cmpf .olt main_v0 main_v1
  let main_c : IVec S_ 1 := constantI S_ 1 1#1
  let main_v3 : IVec S_ 1 := (fun x v => Host.reduce IntOp.andi x v reducesTo_S4x240x320x8_S_d0_1_2_3 h_S_) main_v2 main_c
  let main_v4 : FVec F S4x240x320x8 .f32 := Host.absf main_arg1
  let main_cst_0 : FVec F S_ .f32 := constant S_ .f32 0x7F800000#32
  let main_v5 : FVec F S4x240x320x8 .f32 := broadcastInDim S4x240x320x8 ![] bcast_S_S4x240x320x8 main_cst_0
  let main_v6 : IVec S4x240x320x8 1 := cmpf .olt main_v4 main_v5
  let main_c_1 : IVec S_ 1 := constantI S_ 1 1#1
  let main_v7 : IVec S_ 1 := (fun x v => Host.reduce IntOp.andi x v reducesTo_S4x240x320x8_S_d0_1_2_3 h_S_) main_v6 main_c_1
  let main_v8 : IVec S_ 1 := andi main_v3 main_v7
  let main_v9 : FVec F S256x256x256 .f32 := Host.absf main_arg3
  let main_cst_2 : FVec F S_ .f32 := constant S_ .f32 0x7F800000#32
  let main_v10 : FVec F S256x256x256 .f32 := broadcastInDim S256x256x256 ![] bcast_S_S256x256x256 main_cst_2
  let main_v11 : IVec S256x256x256 1 := cmpf .olt main_v9 main_v10
  let main_c_3 : IVec S_ 1 := constantI S_ 1 1#1
  let main_v12 : IVec S_ 1 := (fun x v => Host.reduce IntOp.andi x v reducesTo_S256x256x256_S_d0_1_2 h_S_) main_v11 main_c_3
  let main_v13 : IVec S_ 1 := andi main_v8 main_v12
  let main_v14 : FVec F S256x256x256 .f32 := Host.absf main_arg4
  let main_cst_4 : FVec F S_ .f32 := constant S_ .f32 0x7F800000#32
  let main_v15 : FVec F S256x256x256 .f32 := broadcastInDim S256x256x256 ![] bcast_S_S256x256x256 main_cst_4
  let main_v16 : IVec S256x256x256 1 := cmpf .olt main_v14 main_v15
  fn_part1 (F := F) main_v13 main_v16
-- ==== Kernel.lean ====
abbrev S4x240x320x8 : Shape := ⟨4, ![4, 240, 320, 8]⟩
abbrev S4x240x320x8x3 : Shape := ⟨5, ![4, 240, 320, 8, 3]⟩
abbrev S256x256x256 : Shape := ⟨3, ![256, 256, 256]⟩
abbrev S3 : Shape := ⟨1, ![3]⟩
abbrev S2457600 : Shape := ⟨1, ![2457600]⟩
abbrev S2457600x3 : Shape := ⟨2, ![2457600, 3]⟩
abbrev S_ : Shape := ⟨0, ![]⟩
abbrev S1x3 : Shape := ⟨2, ![1, 3]⟩
abbrev S2457600x1 : Shape := ⟨2, ![2457600, 1]⟩
abbrev S1x2457600 : Shape := ⟨2, ![1, 2457600]⟩
abbrev S3x2457600 : Shape := ⟨2, ![3, 2457600]⟩
abbrev S3x16777216 : Shape := ⟨2, ![3, 16777216]⟩
abbrev S1x16777216 : Shape := ⟨2, ![1, 16777216]⟩
abbrev S16777216 : Shape := ⟨1, ![16777216]⟩
abbrev S8x256x256 : Shape := ⟨3, ![8, 256, 256]⟩

abbrev nBuf : Space → Nat
  | .hbm => 73
  | .vmem => 14
  | .smem => 0
  | _ => 0

abbrev bufTy : (tb : Table) → Fin (tcTables nBuf tb) → BufTy
  | .hbm, ⟨0, _⟩ => ⟨S4x240x320x8, .f32⟩
  | .hbm, ⟨1, _⟩ => ⟨S4x240x320x8, .f32⟩
  | .hbm, ⟨2, _⟩ => ⟨S4x240x320x8x3, .i32⟩
  | .hbm, ⟨3, _⟩ => ⟨S256x256x256, .f32⟩
  | .hbm, ⟨4, _⟩ => ⟨S256x256x256, .f32⟩
  | .hbm, ⟨5, _⟩ => ⟨S3, .i32⟩
  | .hbm, ⟨6, _⟩ => ⟨S2457600, .f32⟩
  | .hbm, ⟨7, _⟩ => ⟨S2457600, .f32⟩
  | .hbm, ⟨8, _⟩ => ⟨S2457600x3, .i32⟩
  | .hbm, ⟨9, _⟩ => ⟨S_, .i32⟩
  | .hbm, ⟨10, _⟩ => ⟨S2457600x3, .i32⟩
  | .hbm, ⟨11, _⟩ => ⟨S2457600x3, .i1⟩
  | .hbm, ⟨12, _⟩ => ⟨S1x3, .i32⟩
  | .hbm, ⟨13, _⟩ => ⟨S2457600x3, .i32⟩
  | .hbm, ⟨14, _⟩ => ⟨S2457600x3, .i1⟩
  | .hbm, ⟨15, _⟩ => ⟨S2457600x3, .i1⟩
  | .hbm, ⟨16, _⟩ => ⟨S_, .i1⟩
  | .hbm, ⟨17, _⟩ => ⟨S2457600, .i1⟩
  | .hbm, ⟨18, _⟩ => ⟨S2457600x1, .i32⟩
  | .hbm, ⟨19, _⟩ => ⟨S2457600, .i32⟩
  | .hbm, ⟨20, _⟩ => ⟨S_, .i32⟩
  | .hbm, ⟨21, _⟩ => ⟨S2457600, .i32⟩
  | .hbm, ⟨22, _⟩ => ⟨S2457600, .i32⟩
  | .hbm, ⟨23, _⟩ => ⟨S2457600x1, .i32⟩
  | .hbm, ⟨24, _⟩ => ⟨S2457600, .i32⟩
  | .hbm, ⟨25, _⟩ => ⟨S_, .i32⟩
  | .hbm, ⟨26, _⟩ => ⟨S2457600, .i32⟩
  | .hbm, ⟨27, _⟩ => ⟨S2457600, .i32⟩
  | .hbm, ⟨28, _⟩ => ⟨S2457600, .i32⟩
  | .hbm, ⟨29, _⟩ => ⟨S2457600x1, .i32⟩
  | .hbm, ⟨30, _⟩ => ⟨S2457600, .i32⟩
  | .hbm, ⟨31, _⟩ => ⟨S2457600, .i32⟩
  | .hbm, ⟨32, _⟩ => ⟨S_, .i32⟩
  | .hbm, ⟨33, _⟩ => ⟨S_, .i32⟩
  | .hbm, ⟨34, _⟩ => ⟨S2457600, .i32⟩
  | .hbm, ⟨35, _⟩ => ⟨S2457600, .i32⟩
  | .hbm, ⟨36, _⟩ => ⟨S_, .f32⟩
  | .hbm, ⟨37, _⟩ => ⟨S_, .f32⟩
  | .hbm, ⟨38, _⟩ => ⟨S2457600, .f32⟩
  | .hbm, ⟨39, _⟩ => ⟨S2457600, .f32⟩
  | .hbm, ⟨40, _⟩ => ⟨S_, .f32⟩
  | .hbm, ⟨41, _⟩ => ⟨S_, .f32⟩
  | .hbm, ⟨42, _⟩ => ⟨S2457600, .f32⟩
  | .hbm, ⟨43, _⟩ => ⟨S2457600, .f32⟩
  | .hbm, ⟨44, _⟩ => ⟨S2457600, .f32⟩
  | .hbm, ⟨45, _⟩ => ⟨S2457600, .f32⟩
  | .hbm, ⟨46, _⟩ => ⟨S2457600, .f32⟩
  | .hbm, ⟨47, _⟩ => ⟨S1x2457600, .f32⟩
  | .hbm, ⟨48, _⟩ => ⟨S1x2457600, .f32⟩
  | .hbm, ⟨49, _⟩ => ⟨S1x2457600, .f32⟩
  | .hbm, ⟨50, _⟩ => ⟨S3x2457600, .f32⟩
  | .hbm, ⟨51, _⟩ => ⟨S_, .f32⟩
  | .hbm, ⟨52, _⟩ => ⟨S3x16777216, .f32⟩
  | .hbm, ⟨53, _⟩ => ⟨S_, .i32⟩
  | .hbm, ⟨54, _⟩ => ⟨S2457600, .i32⟩
  | .hbm, ⟨55, _⟩ => ⟨S2457600, .i1⟩
  | .hbm, ⟨56, _⟩ => ⟨S_, .i32⟩
  | .hbm, ⟨57, _⟩ => ⟨S2457600, .i32⟩
  | .hbm, ⟨58, _⟩ => ⟨S2457600, .i32⟩
  | .hbm, ⟨59, _⟩ => ⟨S2457600, .i32⟩
  | .hbm, ⟨60, _⟩ => ⟨S2457600x1, .i32⟩
  | .hbm, ⟨61, _⟩ => ⟨S3x16777216, .f32⟩
  | .hbm, ⟨62, _⟩ => ⟨S1x16777216, .f32⟩
  | .hbm, ⟨63, _⟩ => ⟨S16777216, .f32⟩
  | .hbm, ⟨64, _⟩ => ⟨S256x256x256, .f32⟩
  | .hbm, ⟨65, _⟩ => ⟨S1x16777216, .f32⟩
  | .hbm, ⟨66, _⟩ => ⟨S16777216, .f32⟩
  | .hbm, ⟨67, _⟩ => ⟨S256x256x256, .f32⟩
  | .hbm, ⟨68, _⟩ => ⟨S1x16777216, .f32⟩
  | .hbm, ⟨69, _⟩ => ⟨S16777216, .f32⟩
  | .hbm, ⟨70, _⟩ => ⟨S256x256x256, .f32⟩
  | .hbm, ⟨71, _⟩ => ⟨S256x256x256, .f32⟩
  | .hbm, ⟨72, _⟩ => ⟨S256x256x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S8x256x256, .f32⟩
  | .local _ .vmem, ⟨9, _⟩ => ⟨S8x256x256, .f32⟩
  | .local _ .vmem, ⟨10, _⟩ => ⟨S8x256x256, .f32⟩
  | .local _ .vmem, ⟨11, _⟩ => ⟨S8x256x256, .f32⟩
  | .local _ .vmem, ⟨12, _⟩ => ⟨S8x256x256, .f32⟩
  | .local _ .vmem, ⟨13, _⟩ => ⟨S8x256x256, .f32⟩
  | _, _ => ⟨S4x240x320x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_cst_5 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x240x320x8_S2457600 : S4x240x320x8.ShapeCasts S2457600
  shapeCasts_S4x240x320x8x3_S2457600x3 : S4x240x320x8x3.ShapeCasts S2457600x3
  bcast_S_S2457600x3 : S_.BroadcastsInDim S2457600x3 (![] : Fin 0 → Fin S2457600x3.rank)
  bcast_S3_S1x3_1 : S3.BroadcastsInDim S1x3 (![1] : Fin 1 → Fin S1x3.rank)
  bcast_S1x3_S2457600x3_0_1 : S1x3.BroadcastsInDim S2457600x3 (![0, 1] : Fin 2 → Fin S2457600x3.rank)
  reducesTo_S2457600x3_S2457600_d1 : S2457600x3.ReducesTo [1] S2457600
  h_S_ : 0 < S_.numel
  slices_S2457600x3_S2457600x1_0_0 : S2457600x3.Slices ![0, 0] S2457600x1
  shapeCasts_S2457600x1_S2457600 : S2457600x1.ShapeCasts S2457600
  bcast_S_S2457600 : S_.BroadcastsInDim S2457600 (![] : Fin 0 → Fin S2457600.rank)
  slices_S2457600x3_S2457600x1_0_1 : S2457600x3.Slices ![0, 1] S2457600x1
  slices_S2457600x3_S2457600x1_0_2 : S2457600x3.Slices ![0, 2] S2457600x1
  bcast_S2457600_S1x2457600_1 : S2457600.BroadcastsInDim S1x2457600 (![1] : Fin 1 → Fin S1x2457600.rank)
  concatenates_S1x2457600_S1x2457600_S1x2457600_S3x2457600_d0 : Shape.Concatenates [S1x2457600, S1x2457600, S1x2457600] S3x2457600 0
  bcast_S_S3x16777216 : S_.BroadcastsInDim S3x16777216 (![] : Fin 0 → Fin S3x16777216.rank)
  bcast_S2457600_S2457600x1_0 : S2457600.BroadcastsInDim S2457600x1 (![0] : Fin 1 → Fin S2457600x1.rank)
  slices_S3x16777216_S1x16777216_0_0 : S3x16777216.Slices ![0, 0] S1x16777216
  shapeCasts_S1x16777216_S16777216 : S1x16777216.ShapeCasts S16777216
  shapeCasts_S16777216_S256x256x256 : S16777216.ShapeCasts S256x256x256
  slices_S3x16777216_S1x16777216_1_0 : S3x16777216.Slices ![1, 0] S1x16777216
  slices_S3x16777216_S1x16777216_2_0 : S3x16777216.Slices ![2, 0] S1x16777216
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  scatter_S3x16777216_S2457600x1_S3x2457600_0_1_1_1_wf : ScatterDims.WF S3x16777216 S2457600x1 S3x2457600 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S256x256x256.size a
  hwx0_0 : ∀ i : grid0.Coords, EltTy.bits .f32 = 32 ∨ (Rect.block (s := S256x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S256x256x256.size a
  hwx0_1 : ∀ i : grid0.Coords, EltTy.bits .f32 = 32 ∨ (Rect.block (s := S256x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S256x256x256.size a
  hwx0_2 : ∀ i : grid0.Coords, EltTy.bits .f32 = 32 ∨ (Rect.block (s := S256x256x256) S8x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S256x256x256.size a
  hwx0_3 : ∀ i : grid0.Coords, EltTy.bits .f32 = 32 ∨ (Rect.block (s := S256x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x256.size a ≤ S256x256x256.size a
  hwx0_4 : ∀ i : grid0.Coords, EltTy.bits .f32 = 32 ∨ (Rect.block (s := S256x256x256) S8x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x256.size a ≤ S256x256x256.size a
  hwx0_5 : ∀ i : grid0.Coords, EltTy.bits .f32 = 32 ∨ (Rect.block (s := S256x256x256) S8x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x256.size a ≤ S256x256x256.size a
  hwx0_6 : ∀ i : grid0.Coords, EltTy.bits .f32 = 32 ∨ (Rect.block (s := S256x256x256) S8x256x256.size (cc0_transform_6 i) (hinb0_6 i)).WholeWords (EltTy.packing .f32)

variable [Facts₀]

def scatter_S3x16777216_S2457600x1_S3x2457600_0_1_1_1 : ScatterDims S3x16777216 S2457600x1 S3x2457600 where
  updateWindowDims := [0]
  insertedWindowDims := [1]
  scatterDimsToOperandDims := [1]
  indexVectorDim := 1
  wf := scatter_S3x16777216_S2457600x1_S3x2457600_0_1_1_1_wf

abbrev win0_0 : Pipeline.Window sig grid0 :=
  Pipeline.Window.ofSpec (Memref.whole main_arg3) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S8x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48_0) S8x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v48_1) S8x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where
  halias0_5 : Pipeline.Aliased win0 0 5
  halias0_6 : Pipeline.Aliased win0 1 6

variable [Facts]
-- ==== ReferenceIdeal.lean ====
abbrev S4x240x320x8 : Shape := ⟨4, ![4, 240, 320, 8]⟩
abbrev S4x240x320x8x3 : Shape := ⟨5, ![4, 240, 320, 8, 3]⟩
abbrev S256x256x256 : Shape := ⟨3, ![256, 256, 256]⟩
abbrev S3 : Shape := ⟨1, ![3]⟩
abbrev S2457600 : Shape := ⟨1, ![2457600]⟩
abbrev S2457600x3 : Shape := ⟨2, ![2457600, 3]⟩
abbrev S_ : Shape := ⟨0, ![]⟩
abbrev S1x3 : Shape := ⟨2, ![1, 3]⟩
abbrev S2457600x1 : Shape := ⟨2, ![2457600, 1]⟩
abbrev S16777217 : Shape := ⟨1, ![16777217]⟩
abbrev S16777216 : Shape := ⟨1, ![16777216]⟩
abbrev S1 : Shape := ⟨1, ![1]⟩

abbrev nBuf : Space → Nat
  | .hbm => 144
  | .vmem => 0
  | .smem => 0
  | _ => 0

abbrev hbmTy0_0 (i : Nat) : BufTy := match i % 128 with
  | 0 => ⟨S4x240x320x8, .f32⟩
  | 1 => ⟨S4x240x320x8, .f32⟩
  | 2 => ⟨S4x240x320x8x3, .i32⟩
  | 3 => ⟨S256x256x256, .f32⟩
  | 4 => ⟨S256x256x256, .f32⟩
  | 5 => ⟨S3, .i32⟩
  | 6 => ⟨S2457600, .f32⟩
  | 7 => ⟨S2457600, .f32⟩
  | 8 => ⟨S2457600x3, .i32⟩
  | 9 => ⟨S_, .i32⟩
  | 10 => ⟨S2457600x3, .i32⟩
  | 11 => ⟨S2457600x3, .i1⟩
  | 12 => ⟨S1x3, .i32⟩
  | 13 => ⟨S2457600x3, .i32⟩
  | 14 => ⟨S2457600x3, .i1⟩
  | 15 => ⟨S2457600x3, .i1⟩
  | 16 => ⟨S_, .i1⟩
  | 17 => ⟨S2457600, .i1⟩
  | 18 => ⟨S2457600x1, .i32⟩
  | 19 => ⟨S2457600, .i32⟩
  | 20 => ⟨S_, .i32⟩
  | 21 => ⟨S2457600, .i32⟩
  | 22 => ⟨S2457600, .i32⟩
  | 23 => ⟨S2457600x1, .i32⟩
  | 24 => ⟨S2457600, .i32⟩
  | 25 => ⟨S_, .i32⟩
  | 26 => ⟨S2457600, .i32⟩
  | 27 => ⟨S2457600, .i32⟩
  | 28 => ⟨S2457600, .i32⟩
  | 29 => ⟨S2457600x1, .i32⟩
  | 30 => ⟨S2457600, .i32⟩
  | 31 => ⟨S2457600, .i32⟩
  | 32 => ⟨S_, .i32⟩
  | 33 => ⟨S_, .i32⟩
  | 34 => ⟨S2457600, .i32⟩
  | 35 => ⟨S2457600, .i32⟩
  | 36 => ⟨S_, .i32⟩
  | 37 => ⟨S_, .i32⟩
  | 38 => ⟨S2457600, .i32⟩
  | 39 => ⟨S2457600, .i32⟩
  | 40 => ⟨S_, .f32⟩
  | 41 => ⟨S_, .f32⟩
  | 42 => ⟨S2457600, .f32⟩
  | 43 => ⟨S2457600, .f32⟩
  | 44 => ⟨S_, .f32⟩
  | 45 => ⟨S16777217, .f32⟩
  | 46 => ⟨S_, .i32⟩
  | 47 => ⟨S2457600, .i32⟩
  | 48 => ⟨S2457600, .i1⟩
  | 49 => ⟨S_, .i32⟩
  | 50 => ⟨S2457600, .i32⟩
  | 51 => ⟨S2457600, .i32⟩
  | 52 => ⟨S2457600, .i32⟩
  | 53 => ⟨S2457600x1, .i32⟩
  | 54 => ⟨S16777217, .f32⟩
  | 55 => ⟨S_, .f32⟩
  | 56 => ⟨S16777217, .f32⟩
  | 57 => ⟨S2457600, .f32⟩
  | 58 => ⟨S_, .i32⟩
  | 59 => ⟨S2457600, .i32⟩
  | 60 => ⟨S2457600, .i1⟩
  | 61 => ⟨S_, .i32⟩
  | 62 => ⟨S2457600, .i32⟩
  | 63 => ⟨S2457600, .i32⟩
  | 64 => ⟨S2457600, .i32⟩
  | 65 => ⟨S2457600x1, .i32⟩
  | 66 => ⟨S16777217, .f32⟩
  | 67 => ⟨S_, .i32⟩
  | 68 => ⟨S2457600, .i32⟩
  | 69 => ⟨S2457600, .i1⟩
  | 70 => ⟨S_, .i32⟩
  | 71 => ⟨S2457600, .i32⟩
  | 72 => ⟨S2457600, .i32⟩
  | 73 => ⟨S2457600, .i32⟩
  | 74 => ⟨S2457600x1, .i32⟩
  | 75 => ⟨S2457600, .f32⟩
  | 76 => ⟨S_, .i32⟩
  | 77 => ⟨S2457600, .i32⟩
  | 78 => ⟨S2457600, .i1⟩
  | 79 => ⟨S_, .i32⟩
  | 80 => ⟨S2457600, .i32⟩
  | 81 => ⟨S2457600, .i32⟩
  | 82 => ⟨S2457600, .i32⟩
  | 83 => ⟨S2457600x1, .i32⟩
  | 84 => ⟨S2457600, .f32⟩
  | 85 => ⟨S16777216, .f32⟩
  | 86 => ⟨S16777216, .f32⟩
  | 87 => ⟨S_, .i32⟩
  | 88 => ⟨S2457600, .i32⟩
  | 89 => ⟨S2457600, .i1⟩
  | 90 => ⟨S_, .i32⟩
  | 91 => ⟨S2457600, .i32⟩
  | 92 => ⟨S2457600, .i32⟩
  | 93 => ⟨S2457600, .i32⟩
  | 94 => ⟨S2457600x1, .i32⟩
  | 95 => ⟨S2457600, .f32⟩
  | 96 => ⟨S_, .i32⟩
  | 97 => ⟨S2457600, .i32⟩
  | 98 => ⟨S2457600, .i1⟩
  | 99 => ⟨S_, .i32⟩
  | 100 => ⟨S2457600, .i32⟩
  | 101 => ⟨S2457600, .i32⟩
  | 102 => ⟨S2457600, .i32⟩
  | 103 => ⟨S2457600x1, .i32⟩
  | 104 => ⟨S2457600, .f32⟩
  | 105 => ⟨S2457600, .f32⟩
  | 106 => ⟨S_, .f32⟩
  | 107 => ⟨S2457600, .f32⟩
  | 108 => ⟨S2457600, .i1⟩
  | 109 => ⟨S_, .f32⟩
  | 110 => ⟨S_, .f32⟩
  | 111 => ⟨S2457600, .f32⟩
  | 112 => ⟨S2457600, .f32⟩
  | 113 => ⟨S2457600, .f32⟩
  | 114 => ⟨S2457600, .f32⟩
  | 115 => ⟨S2457600, .f32⟩
  | 116 => ⟨S_, .f32⟩
  | 117 => ⟨S1, .f32⟩
  | 118 => ⟨S16777217, .f32⟩
  | 119 => ⟨S_, .i32⟩
  | 120 => ⟨S2457600, .i32⟩
  | 121 => ⟨S2457600, .i1⟩
  | 122 => ⟨S_, .i32⟩
  | 123 => ⟨S2457600, .i32⟩
  | 124 => ⟨S2457600, .i32⟩
  | 125 => ⟨S2457600, .i32⟩
  | 126 => ⟨S2457600x1, .i32⟩
  | 127 => ⟨S16777217, .f32⟩
  | _ => ⟨S4x240x320x8, .f32⟩

abbrev hbmTy0_1 (i : Nat) : BufTy := match i % 128 with
  | 0 => ⟨S16777216, .f32⟩
  | 1 => ⟨S256x256x256, .f32⟩
  | 2 => ⟨S_, .f32⟩
  | 3 => ⟨S1, .f32⟩
  | 4 => ⟨S16777217, .f32⟩
  | 5 => ⟨S_, .i32⟩
  | 6 => ⟨S2457600, .i32⟩
  | 7 => ⟨S2457600, .i1⟩
  | 8 => ⟨S_, .i32⟩
  | 9 => ⟨S2457600, .i32⟩
  | 10 => ⟨S2457600, .i32⟩
  | 11 => ⟨S2457600, .i32⟩
  | 12 => ⟨S2457600x1, .i32⟩
  | 13 => ⟨S16777217, .f32⟩
  | 14 => ⟨S16777216, .f32⟩
  | 15 => ⟨S256x256x256, .f32⟩
  | _ => ⟨S4x240x320x8, .f32⟩

abbrev hbmTy (i : Nat) : BufTy := match i / 128 with
  | 0 => hbmTy0_0 i
  | 1 => hbmTy0_1 i
  | _ => ⟨S4x240x320x8, .f32⟩

abbrev bufTy : (tb : Table) → Fin (tcTables nBuf tb) → BufTy
  | .hbm, ⟨i, _⟩ => hbmTy i
  | _, _ => ⟨S4x240x320x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_12 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_c_15 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_16 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_18 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_20 : Ref sig .tc := ⟨.hbm, 106, rfl⟩
abbrev main_v73 : Ref sig .tc := ⟨.hbm, 107, rfl⟩
abbrev main_v74 : Ref sig .tc := ⟨.hbm, 108, rfl⟩
abbrev main_cst_21 : Ref sig .tc := ⟨.hbm, 109, rfl⟩
abbrev main_call3_v0 : Ref sig .tc := ⟨.hbm, 110, rfl⟩
abbrev main_call3_v1 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_22 : Ref sig .tc := ⟨.hbm, 116, rfl⟩
abbrev main_v79 : Ref sig .tc := ⟨.hbm, 117, rfl⟩
abbrev main_v80 : Ref sig .tc := ⟨.hbm, 118, rfl⟩
abbrev main_c_23 : Ref sig .tc := ⟨.hbm, 119, rfl⟩
abbrev main_v81 : Ref sig .tc := ⟨.hbm, 120, rfl⟩
abbrev main_v82 : Ref sig .tc := ⟨.hbm, 121, rfl⟩
abbrev main_c_24 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_25 : Ref sig .tc := ⟨.hbm, 130, rfl⟩
abbrev main_v90 : Ref sig .tc := ⟨.hbm, 131, rfl⟩
abbrev main_v91 : Ref sig .tc := ⟨.hbm, 132, rfl⟩
abbrev main_c_26 : Ref sig .tc := ⟨.hbm, 133, rfl⟩
abbrev main_v92 : Ref sig .tc := ⟨.hbm, 134, rfl⟩
abbrev main_v93 : Ref sig .tc := ⟨.hbm, 135, rfl⟩
abbrev main_c_27 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩

abbrev nD : Nat := 1
abbrev τ : Topo := Topo.v7x

variable {F : FTy → Type} [FloatOps F]

class Facts₀ : Prop where
  shapeCasts_S4x240x320x8_S2457600 : S4x240x320x8.ShapeCasts S2457600
  shapeCasts_S4x240x320x8x3_S2457600x3 : S4x240x320x8x3.ShapeCasts S2457600x3
  bcast_S_S2457600x3 : S_.BroadcastsInDim S2457600x3 (![] : Fin 0 → Fin S2457600x3.rank)
  bcast_S3_S1x3_1 : S3.BroadcastsInDim S1x3 (![1] : Fin 1 → Fin S1x3.rank)
  bcast_S1x3_S2457600x3_0_1 : S1x3.BroadcastsInDim S2457600x3 (![0, 1] : Fin 2 → Fin S2457600x3.rank)
  reducesTo_S2457600x3_S2457600_d1 : S2457600x3.ReducesTo [1] S2457600
  h_S_ : 0 < S_.numel
  slices_S2457600x3_S2457600x1_0_0 : S2457600x3.Slices ![0, 0] S2457600x1
  shapeCasts_S2457600x1_S2457600 : S2457600x1.ShapeCasts S2457600
  bcast_S_S2457600 : S_.BroadcastsInDim S2457600 (![] : Fin 0 → Fin S2457600.rank)
  slices_S2457600x3_S2457600x1_0_1 : S2457600x3.Slices ![0, 1] S2457600x1
  slices_S2457600x3_S2457600x1_0_2 : S2457600x3.Slices ![0, 2] S2457600x1
  bcast_S_S16777217 : S_.BroadcastsInDim S16777217 (![] : Fin 0 → Fin S16777217.rank)
  bcast_S2457600_S2457600x1_0 : S2457600.BroadcastsInDim S2457600x1 (![0] : Fin 1 → Fin S2457600x1.rank)
  shapeCasts_S256x256x256_S16777216 : S256x256x256.ShapeCasts S16777216
  bcast_S_S1 : S_.BroadcastsInDim S1 (![] : Fin 0 → Fin S1.rank)
  concatenates_S16777216_S1_S16777217_d0 : Shape.Concatenates [S16777216, S1] S16777217 0
  slices_S16777217_S16777216_0 : S16777217.Slices ![0] S16777216
  shapeCasts_S16777216_S256x256x256 : S16777216.ShapeCasts S256x256x256
  scatter_S16777217_S2457600x1_S2457600_n_0_0_1_wf : ScatterDims.WF S16777217 S2457600x1 S2457600 [] [0] [0] 1
  gather_S16777217_S2457600x1_S2457600_n_0_n_n_0_1_1_wf : GatherDims.WF S16777217 S2457600x1 S2457600 [] [0] [] [0] [] 1 ![1]
  gather_S16777216_S2457600x1_S2457600_n_0_n_n_0_1_1_wf : GatherDims.WF S16777216 S2457600x1 S2457600 [] [0] [] [0] [] 1 ![1]

variable [Facts₀]

def scatter_S16777217_S2457600x1_S2457600_n_0_0_1 : ScatterDims S16777217 S2457600x1 S2457600 where
  updateWindowDims := []
  insertedWindowDims := [0]
  scatterDimsToOperandDims := [0]
  indexVectorDim := 1
  wf := scatter_S16777217_S2457600x1_S2457600_n_0_0_1_wf
def gather_S16777217_S2457600x1_S2457600_n_0_n_n_0_1_1 : GatherDims S16777217 S2457600x1 S2457600 where
  offsetDims := []
  collapsedSliceDims := [0]
  operandBatchingDims := []
  startIndicesBatchingDims := []
  startIndexMap := [0]
  indexVectorDim := 1
  sliceSizes := ![1]
  wf := gather_S16777217_S2457600x1_S2457600_n_0_n_n_0_1_1_wf
def gather_S16777216_S2457600x1_S2457600_n_0_n_n_0_1_1 : GatherDims S16777216 S2457600x1 S2457600 where
  offsetDims := []
  collapsedSliceDims := [0]
  operandBatchingDims := []
  startIndicesBatchingDims := []
  startIndexMap := [0]
  indexVectorDim := 1
  sliceSizes := ![1]
  wf := gather_S16777216_S2457600x1_S2457600_n_0_n_n_0_1_1_wf

class Facts : Prop extends Facts₀ where

variable [Facts]
-- ==== Proof.KFrameBits.lean ====
import proofs.«428678_j87033217286587_2_alg».proof.Proof.Gen.Kernel.Launch
import proofs.«428678_j87033217286587_2_alg».proof.Proof.Gen.Kernel.Skeleton
import proofs.«428678_j87033217286587_2_alg».proof.Proof.Gen.Kernel.Points
import Idealize.ShloMosaic.Lib.Pipeline.FrameBody
import Idealize.ShloMosaic.Lib.Ring
import Idealize.ShloMosaic.Lib.Tactic

/-!
The frame of the kernel program as printed, at any float instance: the host stretches before the one
pipelined region, the contents of every TensorCore array when the region is entered, the block of each
window at a grid point, what the region's body leaves in each output window's staging buffer (as a
function of the input blocks), the body's triple, the pipeline's proof data, and the run of @main to the
post that every argument array ends as launched.
-/

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the seven host stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- No host operation allocates a buffer of its own. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main up to the region: the seven host stretches in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place: the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    library's frame post, read at the argument arrays — a staged input through its window's array, an array no
    window stages through the post's second clause, each then as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c)))⟩) h

/-! ## The body's accesses -/

/-- The one rectangle the body loads and stores through: the whole 8x256x256 block. -/
abbrev r0 : Rect S8x256x256 := Rect.unit (s := S8x256x256) ![0, 0, 0] S8x256x256.size inb_S8x256x256_S8x256x256_0_0_0

/-! ## What the body leaves in each output window's buffer -/

/-- Window 5's staging buffer after the body, from the five input blocks: its one whole-block store. -/
def out0_5 (x0 x1 x2 x3 x4 : Vec F S8x256x256 .f32) : Vec F S8x256x256 .f32 :=
  View.canon [⟨r0, k0_pay2 (View.ld x0 r0) (View.ld x1 r0) (View.ld x2 r0) (View.ld x3 r0) (View.ld x4 r0)⟩]

/-- Window 6's staging buffer after the body, from input blocks 1 and 2: its one whole-block store. -/
def out0_6 (x1 x2 : Vec F S8x256x256 .f32) : Vec F S8x256x256 .f32 :=
  View.canon [⟨r0, k0_pay1 (View.ld x1 r0) (View.ld x2 r0)⟩]

/-- The one store tiles the buffer, so it covers it. -/
theorem cover0 (p0 : Vec F S8x256x256 .f32) (y : S8x256x256.Idx) :
    ∃ pc ∈ ([⟨r0, p0⟩] : List (View.Piece (Elt F) S8x256x256 .f32)), y ∈ pc.1.set :=
  View.cover_of_tiled [⟨r0, p0⟩] S8x256x256.size (by rfl) y

/-! ## The body's triple -/

set_option maxHeartbeats 4000000 in
/-- The kernel body on whole staging memrefs, the inputs' at read contents and the outputs' at anything, runs to
    the continuation holding the inputs' as they were and each output's at its whole-block store of the inputs'. -/
theorem sound_kernel (c : Dev nD) (E : Set ℕ) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S8x256x256 .f32) (harg6 : arg6.IsWhole) (arg7 : Memref sig .tc .vmem S8x256x256 .f32) (harg7 : arg7.IsWhole)
    (x0 x1 x2 x3 x4 : Vec F S8x256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x1 x2)) -∗ K ⟨⟩))
      ⊢ wp frame (wpE (defs₀ (F := F)) Variants.none c none) E (cc0__merge_kernel i arg1 harg1 arg2 harg2 arg3 harg3 arg4 harg4 arg5 harg5 arg6 harg6 arg7 harg7) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the one pipeline on core `c`: the arrays as the region finds them (`V`); after the body at
    point `t` each input's buffer at its block and each output's at its store of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.KF

end
-- ==== Proof.KFrame.lean ====
import proofs.«428678_j87033217286587_2_alg».proof.Proof.Gen.KernelIdeal.Launch
import proofs.«428678_j87033217286587_2_alg».proof.Proof.Gen.KernelIdeal.Skeleton
import proofs.«428678_j87033217286587_2_alg».proof.Proof.Gen.KernelIdeal.Points
import Idealize.ShloMosaic.Lib.Pipeline.FrameBody
import Idealize.ShloMosaic.Lib.Ring
import Idealize.ShloMosaic.Lib.Tactic

/-!
The frame of the idealized kernel program, at any float instance: the host stretches before the one
pipelined region, the contents of every TensorCore array when the region is entered, the block of each
window at a grid point, what the region's body leaves in each output window's staging buffer (as a
function of the input blocks), the body's triple, the pipeline's proof data, and the run of @main to the
post that every argument array ends as launched.
-/

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the seven host stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- No host operation allocates a buffer of its own. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main up to the region: the seven host stretches in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place: the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    library's frame post, read at the argument arrays — a staged input through its window's array, an array no
    window stages through the post's second clause, each then as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c)))⟩) h

/-! ## The body's accesses -/

/-- The one rectangle the body loads and stores through: the whole 8x256x256 block. -/
abbrev r0 : Rect S8x256x256 := Rect.unit (s := S8x256x256) ![0, 0, 0] S8x256x256.size inb_S8x256x256_S8x256x256_0_0_0

/-! ## What the body leaves in each output window's buffer -/

/-- Window 5's staging buffer after the body, from the five input blocks: its one whole-block store. -/
def out0_5 (x0 x1 x2 x3 x4 : Vec F S8x256x256 .f32) : Vec F S8x256x256 .f32 :=
  View.canon [⟨r0, k0_pay2 (View.ld x0 r0) (View.ld x1 r0) (View.ld x2 r0) (View.ld x3 r0) (View.ld x4 r0)⟩]

/-- Window 6's staging buffer after the body, from input blocks 1 and 2: its one whole-block store. -/
def out0_6 (x1 x2 : Vec F S8x256x256 .f32) : Vec F S8x256x256 .f32 :=
  View.canon [⟨r0, k0_pay1 (View.ld x1 r0) (View.ld x2 r0)⟩]

/-- The one store tiles the buffer, so it covers it. -/
theorem cover0 (p0 : Vec F S8x256x256 .f32) (y : S8x256x256.Idx) :
    ∃ pc ∈ ([⟨r0, p0⟩] : List (View.Piece (Elt F) S8x256x256 .f32)), y ∈ pc.1.set :=
  View.cover_of_tiled [⟨r0, p0⟩] S8x256x256.size (by rfl) y

/-! ## The body's triple -/

set_option maxHeartbeats 4000000 in
/-- The kernel body on whole staging memrefs, the inputs' at read contents and the outputs' at anything, runs to
    the continuation holding the inputs' as they were and each output's at its whole-block store of the inputs'. -/
theorem sound_kernel (c : Dev nD) (E : Set ℕ) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S8x256x256 .f32) (harg6 : arg6.IsWhole) (arg7 : Memref sig .tc .vmem S8x256x256 .f32) (harg7 : arg7.IsWhole)
    (x0 x1 x2 x3 x4 : Vec F S8x256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x1 x2)) -∗ K ⟨⟩))
      ⊢ wp frame (wpE (defs₀ (F := F)) Variants.none c none) E (cc0__merge_kernel i arg1 harg1 arg2 harg2 arg3 harg3 arg4 harg4 arg5 harg5 arg6 harg6 arg7 harg7) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the one pipeline on core `c`: the arrays as the region finds them (`V`); after the body at
    point `t` each input's buffer at its block and each output's at its store of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.KF

end
-- ==== Proof.LibScatter.lean ====
/-
  A stablehlo scatter read at one element.

  Two layouts of jax's `x.at[idx].op(u)` are covered, both with the scatter indices an [n × 1] column of start
  words read SIGNED and NOT clamped (an update whose start falls outside the scattered axis is dropped):
  the rank-1 operand scattered along its one axis (one scalar update per index), and the [R × N] operand scattered
  along its second axis with whole columns of R entries as the update windows (row r of update column p lands in
  row r). For both, the element an update lands on is stated once (`resultIdx_col`, `resultIdx_rows`).
  On top of that: the accumulating float scatter at the exact instance read at an element as the operand's entry
  plus a sum over the update positions that land there, and the overwriting scatter (`fun _ b => b`), whose value
  at an element is decided by the updates that land there: untouched it keeps the operand's entry, and when all
  the updates landing there carry one value it holds that value, whatever the order they are applied in.
-/
import Idealize.ShloMosaic.PureOps.Ideal
import Idealize.ShloMosaic.PureOps.Contract
import Idealize.ShloMosaic.Lib.ValueIdx
import Idealize.ShloMosaic.Lib.StableHlo.Predicate

noncomputable section

namespace Cert.LibScatter

open Idealize.ShloMosaic Idealize.ShloMosaic.ValueIdx Idealize.ShloMosaic.StableHlo.Predicate

/-- Where an update whose start word is `k` (read signed) lands on an axis of extent `N`: at `k` when
    `0 ≤ k < N`, nowhere otherwise. -/
def land {w : Nat} (N : Nat) (k : BitVec w) : Option (Fin N) :=
  if h : 0 ≤ k.toInt ∧ k.toInt < N then some ⟨k.toInt.toNat, by omega⟩ else none

theorem land_eq_some_iff {w : Nat} {N : Nat} (k : BitVec w) (i : Fin N) :
    land N k = some i ↔ k.toInt = (i.val : Int) := by
  unfold land
  split
  · rename_i h
    rw [Option.some.injEq]
    constructor
    · intro e
      have e' := congrArg Fin.val e
      simp only at e'
      omega
    · intro e
      apply Fin.ext
      simp only
      omega
  · rename_i h
    constructor
    · intro e
      exact absurd e (by simp)
    · intro e
      exfalso
      apply h
      have := i.isLt
      omega

/-! ## The element an update lands on -/

/-- Rank-1 operand, one scalar update per start index: update `p` lands at its start word, if that is in range. -/
theorem resultIdx_col {N n w : Nat} (d : ScatterDims ⟨1, ![N]⟩ ⟨2, ![n, 1]⟩ ⟨1, ![n]⟩)
    (hu : d.updateWindowDims = []) (hi : d.insertedWindowDims = [0]) (hs : d.scatterDimsToOperandDims = [0])
    (hv : d.indexVectorDim = 1) (idx : IVec ⟨2, ![n, 1]⟩ w) (p : Fin n) :
    d.resultIdx? (ix1 p) idx = (land N (idx (ixP p))).map ix1 := by
  -- the operand's one axis is named by the map, so its start is update `p`'s start word …
  have hm : (0 : Fin 1) ∈ d.scatterDimsToOperandDims := by rw [hs]; exact List.mem_singleton.mpr rfl
  have hstart : ∀ a, d.start (ix1 p) idx a = (idx (ixP p)).toInt := by
    intro a
    obtain rfl : a = 0 := Subsingleton.elim _ _
    unfold ScatterDims.start
    rw [dif_pos hm]
    congr 2
    funext b
    match b with
    | ⟨0, _⟩ =>
      -- the row: the update's one coordinate, whichever of its axes is asked
      unfold ScatterDims.siIdx
      rw [dif_neg (by rw [hv]; simp)]
      unfold ScatterDims.siCoord
      apply Fin.ext
      simp only [Fin.val_cast]
      have e : ∀ X : Fin 1, ((ix1 p : (⟨1, ![n]⟩ : Shape).Idx) X).val = p.val := fun X => by
        obtain rfl : X = 0 := Subsingleton.elim _ _
        rfl
      exact e _
    | ⟨1, _⟩ =>
      -- the index vector's axis: the operand axis' position in the map, which is the first
      unfold ScatterDims.siIdx
      rw [dif_pos (by rw [hv])]
      apply Fin.ext
      show List.idxOf (0 : Fin 1) d.scatterDimsToOperandDims = 0
      rw [hs]; simp
  -- … and it is an inserted axis, so the window coordinate is zero
  have hwin : ∀ a, d.window (ix1 p) a = 0 := by
    intro a
    unfold ScatterDims.window
    rw [dif_neg]
    unfold ScatterDims.sKept Shape.kept
    rw [hi]
    obtain rfl : a = 0 := Subsingleton.elim _ _
    simp
  unfold ScatterDims.resultIdx? land
  by_cases h : 0 ≤ (idx (ixP p)).toInt ∧ (idx (ixP p)).toInt < (N : Int)
  · rw [dif_pos h, dif_pos (by
      intro a
      obtain rfl : a = 0 := Subsingleton.elim _ _
      rw [hstart, hwin]
      exact ⟨by simpa using h.1, by simpa using h.2⟩)]
    rw [Option.map_some]
    congr 1
    funext a
    obtain rfl : a = 0 := Subsingleton.elim _ _
    apply Fin.ext
    show (d.start (ix1 p) idx 0 + (d.window (ix1 p) 0 : Int)).toNat = (idx (ixP p)).toInt.toNat
    rw [hstart, hwin]
    simp
  · rw [dif_neg h, dif_neg (by
      intro hall
      apply h
      have := hall 0
      rw [hstart, hwin] at this
      exact ⟨by simpa using this.1, by simpa using this.2⟩)]
    rfl

/-- [R × N] operand scattered along its second axis by whole columns: entry `r` of update column `p` lands in
    row `r` at the column's start word, if that is in range. -/
theorem resultIdx_rows {R N n w : Nat} (d : ScatterDims ⟨2, ![R, N]⟩ ⟨2, ![n, 1]⟩ ⟨2, ![R, n]⟩)
    (hu : d.updateWindowDims = [0]) (hi : d.insertedWindowDims = [1]) (hs : d.scatterDimsToOperandDims = [1])
    (hv : d.indexVectorDim = 1) (idx : IVec ⟨2, ![n, 1]⟩ w) (r : Fin R) (p : Fin n) :
    d.resultIdx? (ix2 r p) idx = (land N (idx (ixP p))).map (ix2 r) := by
  -- the row axis is not named by the map: its start is zero …
  have hstart0 : d.start (ix2 r p) idx (0 : Fin 2) = 0 := by
    unfold ScatterDims.start
    rw [dif_neg]
    rw [hs]
    simp
  -- … the column axis is, at the map's first position: its start is update column `p`'s start word
  have hm : (1 : Fin 2) ∈ d.scatterDimsToOperandDims := by rw [hs]; exact List.mem_singleton.mpr rfl
  have hstart1 : d.start (ix2 r p) idx (1 : Fin 2) = (idx (ixP p)).toInt := by
    unfold ScatterDims.start
    rw [dif_pos hm]
    congr 2
    funext b
    match b with
    | ⟨0, _⟩ =>
      -- the row of the start table: the update's coordinate on its scatter axis, which is its second
      unfold ScatterDims.siIdx
      rw [dif_neg (by rw [hv]; simp)]
      unfold ScatterDims.siCoord
      apply Fin.ext
      simp only [Fin.val_cast]
      have e : ∀ X : Fin 2, X ∈ d.uScatter → ((ix2 r p : (⟨2, ![R, n]⟩ : Shape).Idx) X).val = p.val := by
        intro X hX
        have hX' : X ∉ d.updateWindowDims := by
          have := (List.mem_filter.1 hX).2
          simpa using this
        rw [hu] at hX'
        match X with
        | ⟨0, _⟩ => exact absurd (List.mem_singleton.mpr rfl) hX'
        | ⟨1, _⟩ => rfl
      exact e _ (List.getElem_mem _)
    | ⟨1, _⟩ =>
      unfold ScatterDims.siIdx
      rw [dif_pos (by rw [hv])]
      apply Fin.ext
      show List.idxOf (1 : Fin 2) d.scatterDimsToOperandDims = 0
      rw [hs]; simp
  -- the row axis is kept, and the update's window axis (its first) goes to it: the window coordinate is `r` …
  have hk0 : (0 : Fin 2) ∈ d.sKept := by
    unfold ScatterDims.sKept Shape.kept
    rw [hi]
    simp
  have hwin0 : d.window (ix2 r p) (0 : Fin 2) = r.val := by
    unfold ScatterDims.window
    rw [dif_pos hk0]
    have e : ∀ X : Fin 2, X ∈ d.updateWindowDims → ((ix2 r p : (⟨2, ![R, n]⟩ : Shape).Idx) X).val = r.val := by
      intro X hX
      rw [hu] at hX
      obtain rfl : X = 0 := List.mem_singleton.1 hX
      rfl
    exact e _ (List.getElem_mem _)
  -- … the column axis is inserted: window coordinate zero
  have hwin1 : d.window (ix2 r p) (1 : Fin 2) = 0 := by
    unfold ScatterDims.window
    rw [dif_neg]
    unfold ScatterDims.sKept Shape.kept
    rw [hi]
    simp
  have hr := r.isLt
  unfold ScatterDims.resultIdx? land
  by_cases h : 0 ≤ (idx (ixP p)).toInt ∧ (idx (ixP p)).toInt < (N : Int)
  · rw [dif_pos h, dif_pos (by
      refine Fin.forall_fin_two.2 ⟨?_, ?_⟩
      · rw [hstart0, hwin0]
        exact ⟨by omega, by show (0 : Int) + (r.val : Int) < ((R : Nat) : Int); omega⟩
      · rw [hstart1, hwin1]
        exact ⟨by simpa using h.1, by simpa using h.2⟩)]
    rw [Option.map_some]
    congr 1
    funext a
    apply Fin.ext
    match a with
    | ⟨0, _⟩ =>
      show (d.start (ix2 r p) idx (0 : Fin 2) + (d.window (ix2 r p) (0 : Fin 2) : Int)).toNat = r.val
      rw [hstart0, hwin0]
      simp
    | ⟨1, _⟩ =>
      show (d.start (ix2 r p) idx (1 : Fin 2) + (d.window (ix2 r p) (1 : Fin 2) : Int)).toNat = (idx (ixP p)).toInt.toNat
      rw [hstart1, hwin1]
      simp
  · rw [dif_neg h, dif_neg (by
      intro hall
      apply h
      have := hall (1 : Fin 2)
      rw [hstart1, hwin1] at this
      exact ⟨by simpa using this.1, by simpa using this.2⟩)]
    rfl

/-! ## The accumulating float scatter, exactly -/

/-- A rank-1 index determines its coordinate. -/
private theorem ix1_injective {n : Nat} : Function.Injective (ix1 (n := n)) := fun a b h => by
  have := congrFun h (0 : Fin 1)
  exact this

/-- With the row fixed, a rank-2 index determines its column. -/
private theorem ix2_right_injective {n0 n1 : Nat} (a : Fin n0) : Function.Injective (ix2 (n1 := n1) a) := fun b c h => by
  have := congrFun h (1 : Fin 2)
  exact this

/-- The rank-1 accumulating scatter at element `i`: the operand's entry plus the updates whose start is `i`. -/
theorem scatterAdd_col_apply {N n w : Nat} {φ : FTy} (d : ScatterDims ⟨1, ![N]⟩ ⟨2, ![n, 1]⟩ ⟨1, ![n]⟩)
    (hu : d.updateWindowDims = []) (hi : d.insertedWindowDims = [0]) (hs : d.scatterDimsToOperandDims = [0])
    (hv : d.indexVectorDim = 1) (x : FVec Ideal ⟨1, ![N]⟩ φ) (idx : IVec ⟨2, ![n, 1]⟩ w)
    (upd : FVec Ideal ⟨1, ![n]⟩ φ) (i : Fin N) :
    Host.scatterAdd (F := Ideal) d x idx upd (ix1 i)
      = (x (ix1 i) + ∑ p : Fin n, if land N (idx (ixP p)) = some i then upd (ix1 p) else 0 : EReal) := by
  show Ideal.hostScatterAdd d x idx upd (ix1 i) = _
  unfold Ideal.hostScatterAdd
  congr 1
  -- the sum over the updates that land on `i` is a sum over all updates of the landing ones' values; an update
  -- index is its one coordinate
  rw [Finset.sum_filter]
  let e : Fin n ≃ (⟨1, ![n]⟩ : Shape).Idx := ⟨ix1, fun j => j 0, fun _ => rfl, fun j => (eq_ix1 j).symm⟩
  refine (Fintype.sum_equiv e _ _ (fun p => ?_)).symm
  show (if land N (idx (ixP p)) = some i then upd (ix1 p) else 0)
    = if d.resultIdx? (ix1 p) idx = some (ix1 i) then upd (ix1 p) else 0
  refine if_congr ?_ rfl rfl
  rw [resultIdx_col d hu hi hs hv, Option.map_eq_some_iff]
  constructor
  · intro h
    exact ⟨i, h, rfl⟩
  · rintro ⟨i', h, e'⟩
    rw [h, ix1_injective e']

/-- The column-window accumulating scatter at element `(r, i)`: the operand's entry plus row `r` of the update
    columns whose start is `i`. -/
theorem scatterAdd_rows_apply {R N n w : Nat} {φ : FTy} (d : ScatterDims ⟨2, ![R, N]⟩ ⟨2, ![n, 1]⟩ ⟨2, ![R, n]⟩)
    (hu : d.updateWindowDims = [0]) (hi : d.insertedWindowDims = [1]) (hs : d.scatterDimsToOperandDims = [1])
    (hv : d.indexVectorDim = 1) (x : FVec Ideal ⟨2, ![R, N]⟩ φ) (idx : IVec ⟨2, ![n, 1]⟩ w)
    (upd : FVec Ideal ⟨2, ![R, n]⟩ φ) (r : Fin R) (i : Fin N) :
    Host.scatterAdd (F := Ideal) d x idx upd (ix2 r i)
      = (x (ix2 r i) + ∑ p : Fin n, if land N (idx (ixP p)) = some i then upd (ix2 r p) else 0 : EReal) := by
  show Ideal.hostScatterAdd d x idx upd (ix2 r i) = _
  unfold Ideal.hostScatterAdd
  congr 1
  -- the sum over the updates that land on `(r, i)`, as a double sum over the update's rows and columns
  rw [Finset.sum_filter, sum_idx2]
  -- an entry of update row `r'` lands in row `r'`: the rows other than `r` contribute nothing
  have key : ∀ r' : Fin R,
      (∑ p : Fin n, if d.resultIdx? (ix2 r' p) idx = some (ix2 r i) then upd (ix2 r' p) else 0)
        = if r' = r then (∑ p : Fin n, if land N (idx (ixP p)) = some i then upd (ix2 r p) else 0 : EReal) else 0 := by
    intro r'
    by_cases hr : r' = r
    · subst hr
      rw [if_pos rfl]
      refine Finset.sum_congr rfl (fun p _ => if_congr ?_ rfl rfl)
      rw [resultIdx_rows d hu hi hs hv, Option.map_eq_some_iff]
      constructor
      · rintro ⟨i', h, e'⟩
        rw [h, ix2_right_injective r' e']
      · intro h
        exact ⟨i, h, rfl⟩
    · rw [if_neg hr]
      refine Finset.sum_eq_zero (fun p _ => if_neg ?_)
      rw [resultIdx_rows d hu hi hs hv, Option.map_eq_some_iff]
      rintro ⟨i', _, e'⟩
      exact hr (congrFun e' (0 : Fin 2))
  rw [Finset.sum_congr rfl (fun r' _ => key r'), Finset.sum_ite_eq', if_pos (Finset.mem_univ _)]

/-! ## The overwriting scatter -/

/-- The overwriting fold over any list of update positions, none of which lands on `i`, leaves the entry at `i`. -/
private theorem foldl_set_miss {α : Type} {s si u : Shape} {w : Nat} (d : ScatterDims s si u) (idx : IVec si w)
    (upd : u.Idx → α) (i : s.Idx) (L : List (Fin u.numel))
    (hno : ∀ n ∈ L, d.resultIdx? (u.rowMajor.symm n) idx ≠ some i) (r : s.Idx → α) :
    L.foldl (fun r n =>
        match d.resultIdx? (u.rowMajor.symm n) idx with
        | some i₀ => fun i' => if i' = i₀ then (fun (_ b : α) => b) (r i₀) (upd (u.rowMajor.symm n)) else r i'
        | none => r)
      r i = r i := by
  induction L generalizing r with
  | nil => rfl
  | cons n L ih =>
    rw [List.foldl_cons, ih (fun m hm => hno m (List.mem_cons_of_mem _ hm))]
    have h := hno n (List.mem_cons_self ..)
    cases he : d.resultIdx? (u.rowMajor.symm n) idx with
    | none => rfl
    | some i₀ =>
      rw [he] at h
      show (if i = i₀ then _ else r i) = r i
      rw [if_neg]
      intro e
      exact h (by rw [e])

/-- The overwriting fold over any list of update positions, every one of which that lands on `i` carries `v`:
    if one of them lands on `i`, or the entry at `i` was `v` to begin with, the entry at `i` ends as `v`
    (the last position to land on `i` decides, and it carries `v`). -/
private theorem foldl_set_hit {α : Type} {s si u : Shape} {w : Nat} (d : ScatterDims s si u) (idx : IVec si w)
    (upd : u.Idx → α) (i : s.Idx) (v : α) (L : List (Fin u.numel))
    (hall : ∀ n ∈ L, d.resultIdx? (u.rowMajor.symm n) idx = some i → upd (u.rowMajor.symm n) = v) (r : s.Idx → α)
    (h : (∃ n ∈ L, d.resultIdx? (u.rowMajor.symm n) idx = some i) ∨ r i = v) :
    L.foldl (fun r n =>
        match d.resultIdx? (u.rowMajor.symm n) idx with
        | some i₀ => fun i' => if i' = i₀ then (fun (_ b : α) => b) (r i₀) (upd (u.rowMajor.symm n)) else r i'
        | none => r)
      r i = v := by
  induction L generalizing r with
  | nil =>
    rcases h with ⟨n, hn, _⟩ | h
    · exact absurd hn List.not_mem_nil
    · exact h
  | cons n L ih =>
    rw [List.foldl_cons]
    apply ih (fun m hm => hall m (List.mem_cons_of_mem _ hm))
    by_cases hn : d.resultIdx? (u.rowMajor.symm n) idx = some i
    · right
      rw [hn]
      show (if i = i then _ else r i) = v
      rw [if_pos rfl]
      exact hall n (List.mem_cons_self ..) hn
    · rcases h with ⟨m, hm, hh⟩ | h
      · rcases List.mem_cons.1 hm with rfl | hm'
        · exact absurd hh hn
        · left
          exact ⟨m, hm', hh⟩
      · right
        cases he : d.resultIdx? (u.rowMajor.symm n) idx with
        | none => exact h
        | some i₀ =>
          rw [he] at hn
          show (if i = i₀ then _ else r i) = v
          rw [if_neg (fun e => hn (by rw [e]))]
          exact h

/-- No update lands on `i`: the operand's entry stays. -/
theorem scatter_set_of_miss {α : Type} {s si u : Shape} {w : Nat} (d : ScatterDims s si u) (x : s.Idx → α)
    (idx : IVec si w) (upd : u.Idx → α) (i : s.Idx) (hno : ∀ j, d.resultIdx? j idx ≠ some i) :
    Host.scatter d (fun _ b => b) x idx upd i = x i := by
  unfold Host.scatter
  exact foldl_set_miss d idx upd i _ (fun n _ => hno _) x

/-- Some update lands on `i`, and every update that does carries `v`: the entry is `v`. -/
theorem scatter_set_of_hit {α : Type} {s si u : Shape} {w : Nat} (d : ScatterDims s si u) (x : s.Idx → α)
    (idx : IVec si w) (upd : u.Idx → α) (i : s.Idx) (v : α) (hex : ∃ j, d.resultIdx? j idx = some i)
    (hall : ∀ j, d.resultIdx? j idx = some i → upd j = v) :
    Host.scatter d (fun _ b => b) x idx upd i = v := by
  unfold Host.scatter
  obtain ⟨j, hj⟩ := hex
  refine foldl_set_hit d idx upd i v _ (fun n _ => hall _) x (Or.inl ⟨u.rowMajor j, List.mem_finRange _, ?_⟩)
  rw [Equiv.symm_apply_apply]
  exact hj

end Cert.LibScatter

end
-- ==== Proof.Points.lean ====
/-
  The sample points. Each of the 2457600 samples carries three integer coordinates; a sample is IN the volume when
  all three lie in [0, 256), and then its voxel is number 65536·i₀ + 256·i₁ + i₂ of the 16777216 voxels. Both programs
  compute these two things — the in-volume bit and the voxel word — by the same integer operations; here they are
  named once, as functions of the integer argument array, and the one arithmetic fact the value claim needs is proved:
  for a sample in the volume the voxel word, read signed, is a voxel number. From it follows where each program's
  start-index columns send a sample: the accumulating scatters, the gathers and the overwriting scatters.
-/
import proofs.«428678_j87033217286587_2_alg».proof.Proof.RefRead
import proofs.«428678_j87033217286587_2_alg».proof.Proof.LibScatter
import Idealize.ShloMosaic.Lib.ReduceAll
import Idealize.ShloMosaic.Lib.ValueIdx
import Idealize.ShloMosaic.Lib.StableHlo.Predicate

noncomputable section

namespace Cert.Pts

open Idealize.ShloMosaic Idealize.ShloMosaic.ValueIdx Idealize.ShloMosaic.StableHlo.Predicate
open Cert.ReferenceIdeal Cert.ReferenceIdeal.ReadP Cert.LibScatter

/-- The number of samples. -/
abbrev NP : Nat := 2457600
/-- The number of voxels. -/
abbrev NV : Nat := 16777216

/-- The integer argument array: three coordinates per sample. -/
abbrev IdxArr : Type := (⟨S4x240x320x8x3, .i32⟩ : BufTy).Contents (Elt Ideal)

variable (I : IdxArr)

/-- Sample `p` is in the volume: the conjunction over its three coordinates of `0 ≤ iₖ < 256`, as the programs compute it. -/
def ok (p : Fin NP) : Prop := val_main_v9 (F := Ideal) I (ix1 p) = 1#1

instance (p : Fin NP) : Decidable (ok I p) := by unfold ok; infer_instance

/-- Sample `p`'s voxel word `65536·i₀ + 256·i₁ + i₂` in 32-bit arithmetic, as the programs compute it. -/
def fl (p : Fin NP) : BitVec 32 := val_main_v21 (F := Ideal) I (ix1 p)

/-- Sample `p`'s voxel (meaningful when the sample is in the volume). -/
def tg (p : Fin NP) : Fin NV := ⟨(fl I p).toNat % NV, Nat.mod_lt _ (by decide)⟩

/-- Coordinate `k` of sample `p`. -/
private def co (p : Fin NP) (k : Fin 3) : BitVec 32 := val_main_v2 (F := Ideal) I (ix2 p k)

/-- For a sample in the volume, each coordinate's range test is 1: the conjunction over the three is. -/
private theorem v8_of_ok (p : Fin NP) (h : ok I p) (k : Fin 3) : val_main_v8 (F := Ideal) I (ix2 p k) = 1#1 := by
  unfold ok val_main_v9 at h
  refine Host.reduce_andi_eq_one _ _ Gen.reducesTo_S2457600x3_S2457600_d1 Gen.h_S_ (ix1 p) h (ix2 p k) ?_
  funext b
  obtain rfl : b = 0 := Subsingleton.elim _ _
  apply Fin.ext
  rw [Shape.ReducesTo.drop_apply_val_of_eq Gen.reducesTo_S2457600x3_S2457600_d1 (ix2 p k) 0 0]

/-- So each coordinate, read signed, lies in [0, 256) … -/
private theorem co_toInt (p : Fin NP) (h : ok I p) (k : Fin 3) : 0 ≤ (co I p k).toInt ∧ (co I p k).toInt < 256 := by
  have h8 := v8_of_ok I p h k
  rw [val_main_v8_apply, IntOp.andi_eq_one, val_main_v4_apply, val_main_v7_apply, IntOp.cmpi_sge, IntOp.cmpi_slt,
    val_main_v3_apply, val_main_c_0_apply, val_main_v6_apply, val_main_v5_apply, val_main_c_apply] at h8
  have e0 : (0#32 : BitVec 32).toInt = 0 := by decide
  have e256 : (256#32 : BitVec 32).toInt = 256 := by decide
  rw [e0, e256] at h8
  exact h8

/-- … and so does its unsigned value: a word whose signed value is not negative has no sign bit. -/
private theorem co_toNat (p : Fin NP) (h : ok I p) (k : Fin 3) : (co I p k).toNat < 256 := by
  obtain ⟨h0, h1⟩ := co_toInt I p h k
  have hc := BitVec.toInt_eq_toNat_cond (co I p k)
  have hlt := (co I p k).isLt
  by_cases hs : 2 * (co I p k).toNat < 2 ^ 32
  · rw [if_pos hs] at hc
    omega
  · rw [if_neg hs] at hc
    omega

/-- The voxel word is `65536·i₀ + 256·i₁ + i₂` in 32-bit arithmetic: the three slices and reshapes read the three
    coordinates of the sample. -/
private theorem fl_eq (p : Fin NP) : fl I p = 65536#32 * co I p 0 + 256#32 * co I p 1 + co I p 2 := by
  have e0 : idx_main_v10 (idx_main_v11 (ix1 p)) = ix2 p (0 : Fin 3) := by
    funext a
    match a with
    | ⟨0, _⟩ => exact Fin.ext (Nat.div_one _)
    | ⟨1, _⟩ => rfl
  have e1 : idx_main_v14 (idx_main_v15 (ix1 p)) = ix2 p (1 : Fin 3) := by
    funext a
    match a with
    | ⟨0, _⟩ => exact Fin.ext (Nat.div_one _)
    | ⟨1, _⟩ => rfl
  have e2 : idx_main_v19 (idx_main_v20 (ix1 p)) = ix2 p (2 : Fin 3) := by
    funext a
    match a with
    | ⟨0, _⟩ => exact Fin.ext (Nat.div_one _)
    | ⟨1, _⟩ => rfl
  unfold fl co
  rw [val_main_v21_apply, val_main_v18_apply, val_main_v13_apply, val_main_v17_apply, val_main_v12_apply,
    val_main_c_2_apply, val_main_v16_apply, val_main_c_3_apply, val_main_v11_apply, val_main_v10_apply,
    val_main_v15_apply, val_main_v14_apply, val_main_v20_apply, val_main_v19_apply, e0, e1, e2]
  rfl

/-- With each coordinate below 256 nothing wraps: the word's value is the voxel number. -/
private theorem fl_toNat (p : Fin NP) (h : ok I p) :
    (fl I p).toNat = 65536 * (co I p 0).toNat + 256 * (co I p 1).toNat + (co I p 2).toNat := by
  have ha := co_toNat I p h 0
  have hb := co_toNat I p h 1
  have hc := co_toNat I p h 2
  have e1 : (65536#32 : BitVec 32).toNat = 65536 := by decide
  have e2 : (256#32 : BitVec 32).toNat = 256 := by decide
  rw [fl_eq, BitVec.toNat_add, BitVec.toNat_add, BitVec.toNat_mul, BitVec.toNat_mul, e1, e2]
  omega

private theorem fl_lt (p : Fin NP) (h : ok I p) : (fl I p).toNat < 16777216 := by
  have ha := co_toNat I p h 0
  have hb := co_toNat I p h 1
  have hc := co_toNat I p h 2
  rw [fl_toNat I p h]
  omega

/-- For a sample in the volume the voxel word, read signed, is its voxel's number: each coordinate is below 256, so
    the word is below 2²⁴ and nothing wraps. -/
theorem fl_toInt (p : Fin NP) (h : ok I p) : (fl I p).toInt = ((tg I p).val : Int) := by
  have hlt := fl_lt I p h
  rw [StableHlo.Predicate.toInt_eq_toNat_of_lt (by omega)]
  show ((fl I p).toNat : Int) = (((fl I p).toNat % NV : Nat) : Int)
  rw [Nat.mod_eq_of_lt hlt]

/-- A select on the in-volume bit is a choice on `ok`. -/
private theorem select_ok {α : Type} (p : Fin NP) (a b : α) :
    Scalar.select (val_main_v9 (F := Ideal) I (ix1 p)) a b = if ok I p then a else b := by
  by_cases h : ok I p
  · rw [if_pos h]
    unfold ok at h
    rw [h]
    exact select_one a b
  · rw [if_neg h]
    unfold ok at h
    rw [eq_zero_of_ne_one h]
    exact select_zero a b

/-- The word routed to the tables with a spare slot: the voxel word in the volume, the spare slot's number outside. -/
private theorem v22_eq (p : Fin NP) :
    val_main_v22 (F := Ideal) I (ix1 p) = if ok I p then fl I p else 16777216#32 := by
  rw [val_main_v22_apply, select_ok, val_main_call0_v1_apply, val_main_call0_v0_apply, val_main_c_4_apply]
  rfl

/-- The word routed to the 16777216-entry tables: the voxel word in the volume, 0 outside. -/
private theorem v23_eq (p : Fin NP) :
    val_main_v23 (F := Ideal) I (ix1 p) = if ok I p then fl I p else 0#32 := by
  rw [val_main_v23_apply, select_ok, val_main_call1_v1_apply, val_main_call1_v0_apply, val_main_c_5_apply]
  rfl

/-- A routed word read signed: the voxel's number in the volume, the constant's outside. -/
private theorem route_toInt (p : Fin NP) (c : BitVec 32) (n : Nat) (hc : c.toInt = (n : Int)) :
    (if ok I p then fl I p else c).toInt = if ok I p then ((tg I p).val : Int) else (n : Int) := by
  by_cases h : ok I p
  · rw [if_pos h, if_pos h]
    exact fl_toInt I p h
  · rw [if_neg h, if_neg h]
    exact hc

/-- The negative-index normalisation `x < 0 ? x + N : x` leaves a word that is not negative as it is. -/
private theorem norm_nonneg (x y z : BitVec 32) (hz : z = 0#32) (hx : 0 ≤ x.toInt) :
    Scalar.select (IntOp.cmpi .slt x z) (IntOp.addi x y) x = x := by
  subst hz
  have hn : ¬ IntOp.cmpi .slt x 0#32 = 1#1 := by
    rw [IntOp.cmpi_slt]
    have e0 : (0#32 : BitVec 32).toInt = 0 := by decide
    omega
  rw [eq_zero_of_ne_one hn]
  exact select_zero _ _

private theorem v22_nonneg (p : Fin NP) : 0 ≤ (val_main_v22 (F := Ideal) I (ix1 p)).toInt := by
  rw [v22_eq, route_toInt I p _ 16777216 (by decide)]
  split <;> omega

private theorem v23_nonneg (p : Fin NP) : 0 ≤ (val_main_v23 (F := Ideal) I (ix1 p)).toInt := by
  rw [v23_eq, route_toInt I p _ 0 (by decide)]
  split <;> omega

/-- The scatter column of the tables with a spare slot, at sample `p`. -/
private theorem v31_eq (p : Fin NP) :
    val_main_v31 (F := Ideal) I (ixP p) = if ok I p then fl I p else 16777216#32 := by
  have e : idx_main_v31 (ixP p) = ix1 p := by
    funext a
    match a with
    | ⟨0, _⟩ => rfl
  rw [val_main_v31_apply, e, val_main_v30_apply, val_main_v27_apply, val_main_v29_apply, val_main_v26_apply,
    val_main_c_7_apply, norm_nonneg _ _ _ rfl (v22_nonneg I p), v22_eq]

/-- The column of the 16777216-entry tables, at sample `p`. -/
private theorem v63_eq (p : Fin NP) :
    val_main_v63 (F := Ideal) I (ixP p) = if ok I p then fl I p else 0#32 := by
  have e : idx_main_v63 (ixP p) = ix1 p := by
    funext a
    match a with
    | ⟨0, _⟩ => rfl
  rw [val_main_v63_apply, e, val_main_v62_apply, val_main_v59_apply, val_main_v61_apply, val_main_v58_apply,
    val_main_c_16_apply, norm_nonneg _ _ _ rfl (v23_nonneg I p), v23_eq]

/-- The gather column of the caches, at sample `p`. -/
private theorem v47_eq (p : Fin NP) :
    val_main_v47 (F := Ideal) I (ixP p) = if ok I p then fl I p else 0#32 := by
  have e : idx_main_v47 (ixP p) = ix1 p := by
    funext a
    match a with
    | ⟨0, _⟩ => rfl
  rw [val_main_v47_apply, e, val_main_v46_apply, val_main_v43_apply, val_main_v45_apply, val_main_v42_apply,
    val_main_c_12_apply, norm_nonneg _ _ _ rfl (v23_nonneg I p), v23_eq]

/-- A voxel as a slot of the table with one spare slot at the end. -/
def up (i : Fin NV) : Fin 16777217 := ⟨i.val, by have h : i.val < 16777216 := i.isLt; omega⟩
/-- The spare slot. -/
def spare : Fin 16777217 := ⟨16777216, by decide⟩

theorem up_ne_spare (i : Fin NV) : up i ≠ spare := by
  intro h
  have h1 : i.val = 16777216 := congrArg Fin.val h
  have h2 : i.val < 16777216 := i.isLt
  omega

theorem up_injective : Function.Injective up := by
  intro a b h
  have h1 : (up a).val = (up b).val := congrArg Fin.val h
  exact Fin.ext h1

/-- The reference's scatter column: a sample in the volume is sent to its voxel's slot, any other to the spare slot. -/
theorem land_v31 (p : Fin NP) :
    land 16777217 (val_main_v31 (F := Ideal) I (ixP p)) = some (if ok I p then up (tg I p) else spare) := by
  rw [land_eq_some_iff, v31_eq, route_toInt I p _ 16777216 (by decide)]
  by_cases h : ok I p
  · rw [if_pos h, if_pos h]
    rfl
  · rw [if_neg h, if_neg h]
    rfl

/-- The column of the 16777216-entry tables (the kernel's scatter, the reference's gathers of the two volumes): a
    sample in the volume is sent to its voxel, any other to voxel 0. -/
theorem land_v63 (p : Fin NP) :
    land 16777216 (val_main_v63 (F := Ideal) I (ixP p)) = some (if ok I p then tg I p else 0) := by
  rw [land_eq_some_iff, v63_eq, route_toInt I p _ 0 (by decide)]
  by_cases h : ok I p
  · rw [if_pos h, if_pos h]
  · rw [if_neg h, if_neg h]
    rfl

/-- The same column read by a gather (start read signed and clamped into the table). -/
theorem take_v63 (p : Fin NP) :
    min (val_main_v63 (F := Ideal) I (ixP p)).toInt.toNat (16777216 - 1) = (if ok I p then tg I p else (0 : Fin NV)).val := by
  rw [v63_eq, route_toInt I p _ 0 (by decide)]
  by_cases h : ok I p
  · rw [if_pos h, if_pos h, Int.toNat_natCast]
    have hlt : (tg I p).val < 16777216 := (tg I p).isLt
    omega
  · rw [if_neg h, if_neg h]
    rfl

/-- The gather column of the 16777217-entry caches: a sample in the volume reads its voxel's slot, any other slot 0. -/
theorem take_v47 (p : Fin NP) :
    min (val_main_v47 (F := Ideal) I (ixP p)).toInt.toNat (16777217 - 1) = (if ok I p then tg I p else (0 : Fin NV)).val := by
  rw [v47_eq, route_toInt I p _ 0 (by decide)]
  by_cases h : ok I p
  · rw [if_pos h, if_pos h, Int.toNat_natCast]
    have hlt : (tg I p).val < 16777216 := (tg I p).isLt
    omega
  · rw [if_neg h, if_neg h]
    rfl

/-- The reference builds its scatter column four times and each gather column twice, from the same operations. -/
theorem v40_eq : val_main_v40 (F := Ideal) I = val_main_v31 (F := Ideal) I := rfl
theorem v86_eq : val_main_v86 (F := Ideal) I = val_main_v31 (F := Ideal) I := rfl
theorem v97_eq : val_main_v97 (F := Ideal) I = val_main_v31 (F := Ideal) I := rfl
theorem v54_eq : val_main_v54 (F := Ideal) I = val_main_v47 (F := Ideal) I := rfl
theorem v70_eq : val_main_v70 (F := Ideal) I = val_main_v63 (F := Ideal) I := rfl

end Cert.Pts

end
-- ==== Proof.SpecK.lean ====
/-
  The per-voxel expression. Both programs form, at each voxel, the same expression of the old value `vv`, the old weight
  `wv` and the sums handed to them: the new weight is `wv + wc`, and the new value is `(wv·vv + vc) / dsafe (wv + wc)`
  where `dsafe d` is `d` when `d > 0` and one otherwise; the kernel selects between that and `vv` by whether a count
  exceeds a half. The three float words the programs spell are named here and never evaluated but for zero.
-/
import Idealize.ShloMosaic.PureOps.Ideal
import Idealize.ShloMosaic.PureOps.Ideal.Laws

noncomputable section

namespace Cert.Spec

open Idealize.ShloMosaic

/-- The three float words the programs spell: zero, one and a half. -/
def ZERO : EReal := Ideal.ofBits .f32 0x00000000#32
def ONE : EReal := Ideal.ofBits .f32 0x3F800000#32
def HALF : EReal := Ideal.ofBits .f32 0x3F000000#32

theorem ZERO_eq : ZERO = 0 := Ideal.ofBits_zero_f32

/-- A denominator made safe: itself when positive, one otherwise. -/
def dsafe (d : EReal) : EReal := Scalar.select (Ideal.cmp .ogt d ZERO) d ONE

/-- The kernel's per-voxel expression of the old value `vv`, the old weight `wv`, and the three sums it is handed. -/
def kv (vv wv wc vc cn : EReal) : EReal :=
  Scalar.select (Ideal.cmp .ogt cn HALF) (Ideal.div (wv * vv + vc) (dsafe (wv + wc))) vv

end Cert.Spec

end
-- ==== Proof.Spec.lean ====
/-
  What both programs compute, stated once over the flattened samples and the voxel numbers.

  Sample `p` has weight `wP p` and value `vP p`; it HITS voxel `i` when it lies in the volume and `i` is its voxel.
  For each voxel: `wsum i` the sum of the weights of the samples that hit it, `vsum i` the sum of their weight·value
  products, `cnt i` the sum of a ONE per hit. A voxel some sample hits is TOUCHED. With `wv`, `vv` the old weight and value
  volumes, the new weight volume is `wv + wsum` everywhere, and the new value volume is, at a touched voxel,
  `(wv·vv + vsum) / dsafe (wv + wsum)` (`dsafe d` is `d` when `d > 0` and one otherwise), and `vv` at an untouched one.
  The kernel decides "touched" by `cnt > ½`: `kv` is its per-voxel expression, and `kv_eq` says that at the sums above it is the
  new value (a count of hits is a natural number of ones: above a half exactly when it is not zero).
-/
import proofs.«428678_j87033217286587_2_alg».proof.Proof.Points
import proofs.«428678_j87033217286587_2_alg».proof.Proof.SpecK
import Idealize.ShloMosaic.PureOps.Ideal.Laws
import Idealize.ShloMosaic.Lib.IdealHost

noncomputable section

namespace Cert.Spec

open Idealize.ShloMosaic Idealize.ShloMosaic.ValueIdx
open Cert.ReferenceIdeal Cert.ReferenceIdeal.ReadP Cert.Pts

/-- A per-sample float argument array (values, weights). -/
abbrev PtArr : Type := (⟨S4x240x320x8, .f32⟩ : BufTy).Contents (Elt Ideal)
/-- A volume. -/
abbrev VolArr : Type := (⟨S256x256x256, .f32⟩ : BufTy).Contents (Elt Ideal)

/-! ## Voxel numbers -/

/-- The number of the voxel at `(a, b, c)`: row-major. -/
def lin (j : (⟨3, ![256, 256, 256]⟩ : Shape).Idx) : Fin NV :=
  ⟨((j 0).val * 256 + (j 1).val) * 256 + (j 2).val, by
    have h0 : (j 0).val < 256 := (j 0).isLt
    have h1 : (j 1).val < 256 := (j 1).isLt
    have h2 : (j 2).val < 256 := (j 2).isLt
    show _ < 16777216
    omega⟩

/-- The voxel with number `i`. -/
def unlin (i : Fin NV) : (⟨3, ![256, 256, 256]⟩ : Shape).Idx :=
  ix3 ⟨i.val / 65536, by have h : i.val < 16777216 := i.isLt; show _ < 256; omega⟩ ⟨i.val / 256 % 256, Nat.mod_lt _ (by decide)⟩
    ⟨i.val % 256, Nat.mod_lt _ (by decide)⟩

theorem unlin_lin (j : (⟨3, ![256, 256, 256]⟩ : Shape).Idx) : unlin (lin j) = j := by
  have h0 : (j 0).val < 256 := (j 0).isLt
  have h1 : (j 1).val < 256 := (j 1).isLt
  have h2 : (j 2).val < 256 := (j 2).isLt
  funext a
  refine Fin.ext ?_
  match a with
  | ⟨0, _⟩ => show (((j 0).val * 256 + (j 1).val) * 256 + (j 2).val) / 65536 = (j 0).val; omega
  | ⟨1, _⟩ => show (((j 0).val * 256 + (j 1).val) * 256 + (j 2).val) / 256 % 256 = (j 1).val; omega
  | ⟨2, _⟩ => show (((j 0).val * 256 + (j 1).val) * 256 + (j 2).val) % 256 = (j 2).val; omega

theorem lin_unlin (i : Fin NV) : lin (unlin i) = i := by
  have h : i.val < 16777216 := i.isLt
  refine Fin.ext ?_
  show (i.val / 65536 * 256 + i.val / 256 % 256) * 256 + i.val % 256 = i.val
  omega

/-! ## The sums over the samples that hit a voxel -/

variable (x0 x1 : PtArr) (I : IdxArr) (x3 x4 : VolArr)

/-- Sample `p`'s weight and value (the sample arrays flattened as both programs flatten them). -/
def wP (p : Fin NP) : EReal := val_main_v1 (F := Ideal) x1 (ix1 p)
def vP (p : Fin NP) : EReal := val_main_v0 (F := Ideal) x0 (ix1 p)

/-- Sample `p` hits voxel `i`. -/
def hits (i : Fin NV) (p : Fin NP) : Prop := ok I p ∧ tg I p = i

instance (i : Fin NV) (p : Fin NP) : Decidable (hits I i p) := by unfold hits; infer_instance

def wsum (i : Fin NV) : EReal := ∑ p : Fin NP, if hits I i p then wP x1 p else 0
def vsum (i : Fin NV) : EReal := ∑ p : Fin NP, if hits I i p then wP x1 p * vP x0 p else 0
def cnt (i : Fin NV) : EReal := ∑ p : Fin NP, if hits I i p then ONE else 0
def touched (i : Fin NV) : Prop := ∃ p, hits I i p

/-! ## The new volumes -/

open Classical in
def newVF (i : Fin NV) : EReal :=
  if touched I i then
    Ideal.div (x4 (unlin i) * x3 (unlin i) + vsum x0 x1 I i) (dsafe (x4 (unlin i) + wsum x1 I i))
  else x3 (unlin i)

def newWF (i : Fin NV) : EReal := x4 (unlin i) + wsum x1 I i

/-- The new value volume. -/
def NewV : VolArr := fun j => newVF x0 x1 I x3 x4 (lin j)
/-- The new weight volume. -/
def NewW : VolArr := fun j => newWF x1 I x4 (lin j)

/-! ## The count decides "touched" -/

theorem ONE_eq : ONE = 1 := Ideal.ofBits_one_f32

/-- The word `0x3F000000` is one half. -/
theorem HALF_eq : HALF = (((1 : ℝ) / 2 : ℝ) : EReal) := by
  unfold HALF
  simp [Ideal.ofBits, Ideal.ieee, -EReal.coe_mul]; norm_num

theorem HALF_lt_ONE : HALF < ONE := by
  rw [HALF_eq, ONE_eq, ← EReal.coe_one, EReal.coe_lt_coe_iff]; norm_num

theorem HALF_pos : (0 : EReal) < HALF := by
  rw [HALF_eq, ← EReal.coe_zero, EReal.coe_lt_coe_iff]; norm_num

/-- No sample hits the voxel: the count is an empty sum of ones. -/
theorem cnt_eq_zero (i : Fin NV) (h : ¬ touched I i) : cnt I i = 0 := by
  unfold cnt
  refine Finset.sum_eq_zero fun p _ => ?_
  rw [if_neg fun hp => h ⟨p, hp⟩]

/-- Some sample hits the voxel: the count is a sum of terms that are not negative, one of them a one. -/
theorem one_le_cnt (i : Fin NV) (h : touched I i) : ONE ≤ cnt I i := by
  obtain ⟨p0, hp0⟩ := h
  unfold cnt
  have hnn : ∀ p ∈ (Finset.univ : Finset (Fin NP)), (0 : EReal) ≤ (fun p => if hits I i p then ONE else (0 : EReal)) p := by
    intro p _
    show (0 : EReal) ≤ if hits I i p then ONE else 0
    split
    · rw [ONE_eq]; exact zero_le_one
    · exact le_refl _
  have hle := Finset.single_le_sum hnn (Finset.mem_univ p0)
  rw [if_pos hp0] at hle
  exact hle

/-- At the sums over the samples the kernel's expression is the new value: the count exceeds a half exactly at a
    touched voxel. -/
theorem kv_eq (i : Fin NV) :
    kv (x3 (unlin i)) (x4 (unlin i)) (wsum x1 I i) (vsum x0 x1 I i) (cnt I i) = newVF x0 x1 I x3 x4 i := by
  unfold kv newVF
  by_cases h : touched I i
  · rw [if_pos h]
    have hlt : HALF < cnt I i := lt_of_lt_of_le HALF_lt_ONE (one_le_cnt I i h)
    have hc : Ideal.cmp .ogt (cnt I i) HALF = 1#1 := by
      unfold Ideal.cmp
      simp [hlt]
    rw [hc]
    rfl
  · rw [if_neg h, cnt_eq_zero I i h]
    have hc : Ideal.cmp .ogt (0 : EReal) HALF = 0#1 := by
      unfold Ideal.cmp
      simp [not_lt.mpr (le_of_lt HALF_pos)]
    rw [hc]
    rfl

end Cert.Spec

end
-- ==== Proof.LibNary.lean ====
/-
  The result of an n-ary host operation over a literal family of THREE references (a concatenate of three
  operands): the operation's function applied to each operand's contents at its own reference, so that the
  operands' contents can go on being rewritten one reference at a time. Same shape as the library's lemma for a
  literal family of four references.
-/
import Idealize.ShloMosaic.Lib.StableHlo.Run

noncomputable section

namespace Idealize.ShloMosaic.StableHlo

variable {τ : Topo} {sig : RefSig} {Val : EltTy → Type}
variable {x a b y : Ref sig .tc}

/-- `nary` over a literal family of three references: the result with each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KHostV.lean ====
/-
  What the kernel program's host operations hand the region, as one term. The three per-voxel tables the region reads
  are the three rows of ONE accumulating scatter: onto a [3 × 16777216] table of zeros, at the column of voxel numbers
  (a sample outside the volume sent to voxel 0), of the [3 × 2457600] update array whose rows are the masked weights,
  the masked weights times the values, and a one per sample in the volume. The valid bit, the masked weights, the
  flattened values and the index column are the same operations on the same literals in both programs, so they are
  spelt here by the reference's stages. Each table is its row of that scatter, flattened and cut into the volume's shape.
-/
import proofs.«428678_j87033217286587_2_alg».proof.Proof.KFrame
import proofs.«428678_j87033217286587_2_alg».proof.Proof.RefRead
import proofs.«428678_j87033217286587_2_alg».proof.Proof.LibNary
import Idealize.ShloMosaic.Lib.StableHlo.Run

noncomputable section

namespace Cert.KernelIdeal.KV

open Idealize.ShloMosaic Idealize.ShloMosaic.TcCoe Idealize.SL.Sem
open Cert.KernelIdeal Cert.KernelIdeal.Gen Cert.KernelIdeal.KF

variable {F : FTy → Type} [FloatOps F]

/-- The update array: row 0 the weights (zero outside the volume), row 1 those times the values, row 2 a one per
    sample in the volume (zero outside). -/
def upd (x0 x1 : (⟨S4x240x320x8, .f32⟩ : BufTy).Contents (Elt F)) (I : (⟨S4x240x320x8x3, .i32⟩ : BufTy).Contents (Elt F)) :
    (⟨S3x2457600, .f32⟩ : BufTy).Contents (Elt F) :=
  concatenate S3x2457600 0
    [⟨S1x2457600, broadcastInDim S1x2457600 ![1] bcast_S2457600_S1x2457600_1 (Cert.ReferenceIdeal.ReadP.val_main_v24 (F := F) x1 I)⟩,
     ⟨S1x2457600, broadcastInDim S1x2457600 ![1] bcast_S2457600_S1x2457600_1
        (mulf (Cert.ReferenceIdeal.ReadP.val_main_v24 (F := F) x1 I) (Cert.ReferenceIdeal.ReadP.val_main_v0 (F := F) x0))⟩,
     ⟨S1x2457600, broadcastInDim S1x2457600 ![1] bcast_S2457600_S1x2457600_1
        (id (select (Cert.ReferenceIdeal.ReadP.val_main_v9 (F := F) I)
          (broadcastInDim S2457600 ![] bcast_S_S2457600 (constant S_ .f32 0x3F800000#32))
          (broadcastInDim S2457600 ![] bcast_S_S2457600 (constant S_ .f32 0x00000000#32))))⟩]
    concatenates_S1x2457600_S1x2457600_S1x2457600_S3x2457600_d0

/-- The three tables as one: the accumulating scatter of the update array onto zeros at the voxel column. -/
def buf (x0 x1 : (⟨S4x240x320x8, .f32⟩ : BufTy).Contents (Elt F)) (I : (⟨S4x240x320x8x3, .i32⟩ : BufTy).Contents (Elt F)) :
    (⟨S3x16777216, .f32⟩ : BufTy).Contents (Elt F) :=
  Host.scatterAdd scatter_S3x16777216_S2457600x1_S3x2457600_0_1_1_1
    (broadcastInDim S3x16777216 ![] bcast_S_S3x16777216 (constant S_ .f32 0x00000000#32))
    (Cert.ReferenceIdeal.ReadP.val_main_v63 (F := F) I) (upd x0 x1 I)

/-! ## The host operations, stretch by stretch

The launch memory passes through seven stretches of host operations before the region. The first computes the valid bit,
the voxel word and the flattened float arguments; the five short ones after it the routed word, the masked weights and the
one-per-valid-sample array; the last the update array, the voxel column, the accumulating scatter and its three rows. For
each stretch: what the values still to be read are after it, from any contents holding the values it reads. -/

section Host

set_option maxRecDepth 16384

open Idealize.ShloMosaic.StableHlo
open Cert.ReferenceIdeal.ReadP

/-- The contents after two lines run one after the other: the second line's, from the first's. -/
private theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Each operation's result at its own buffer is its function of its operands' contents, and at any other buffer what was
    there; the three-operand concatenate by the lemma for a literal family of three references. -/
local macro "after_results3" : tactic =>
  `(tactic| (simp only [after_cons, after_nil]
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The one-per-valid-sample array: 1 where the sample is in the volume, 0 elsewhere. -/
private abbrev cnt (I : (⟨S4x240x320x8x3, .i32⟩ : BufTy).Contents (Elt F)) : (⟨S2457600, .f32⟩ : BufTy).Contents (Elt F) :=
  select (val_main_v9 (F := F) I)
    (broadcastInDim S2457600 ![] bcast_S_S2457600 (constant S_ .f32 0x3F800000#32))
    (broadcastInDim S2457600 ![] bcast_S_S2457600 (constant S_ .f32 0x00000000#32))

/-! ### The first stretch -/

private theorem s0_v0 (W : Valuation τ sig (Elt F)) (x0 : (⟨S4x240x320x8, .f32⟩ : BufTy).Contents (Elt F))
    (h_arg0 : W (Proc.devRef .tc main_arg0) = x0) :
    after (hostOps0 (F := F)) W (Proc.devRef .tc main_v0) = val_main_v0 (F := F) x0 := by
  after_results_simp
  rw [h_arg0]
  rfl

private theorem s0_v1 (W : Valuation τ sig (Elt F)) (x1 : (⟨S4x240x320x8, .f32⟩ : BufTy).Contents (Elt F))
    (h_arg1 : W (Proc.devRef .tc main_arg1) = x1) :
    after (hostOps0 (F := F)) W (Proc.devRef .tc main_v1) = val_main_v1 (F := F) x1 := by
  after_results_simp
  rw [h_arg1]
  rfl

private theorem s0_v9 (W : Valuation τ sig (Elt F)) (I : (⟨S4x240x320x8x3, .i32⟩ : BufTy).Contents (Elt F))
    (h_arg2 : W (Proc.devRef .tc main_arg2) = I) :
    after (hostOps0 (F := F)) W (Proc.devRef .tc main_v9) = val_main_v9 (F := F) I := by
  after_results_simp
  rw [h_arg2]
  rfl

private theorem s0_v21 (W : Valuation τ sig (Elt F)) (I : (⟨S4x240x320x8x3, .i32⟩ : BufTy).Contents (Elt F))
    (h_arg2 : W (Proc.devRef .tc main_arg2) = I) :
    after (hostOps0 (F := F)) W (Proc.devRef .tc main_v21) = val_main_v21 (F := F) I := by
  after_results_simp
  rw [h_arg2]
  rfl

private theorem s0_c4 (W : Valuation τ sig (Elt F)) :
    after (hostOps0 (F := F)) W (Proc.devRef .tc main_c_4) = constantI S_ 32 0#32 := by
  after_results_simp <;> rfl

/-! ### The five short stretches -/

local notation "mid[" W "]" =>
  after (hostOps0_5 (F := F)) (after (hostOps0_4 (F := F)) (after (hostOps0_3 (F := F)) (after (hostOps0_2 (F := F)) (after (hostOps0_1 (F := F)) W))))

/-- The routed word: the voxel word in the volume, 0 outside. -/
private theorem mid_v22 (W : Valuation τ sig (Elt F)) (I : (⟨S4x240x320x8x3, .i32⟩ : BufTy).Contents (Elt F))
    (h9 : W (Proc.devRef .tc main_v9) = val_main_v9 (F := F) I)
    (h21 : W (Proc.devRef .tc main_v21) = val_main_v21 (F := F) I)
    (hc4 : W (Proc.devRef .tc main_c_4) = constantI S_ 32 0#32) :
    mid[W] (Proc.devRef .tc main_v22) = val_main_v23 (F := F) I := by
  after_results_simp
  (try simp only [TRef.ofBuf, TRef.toBuf, cast_eq])
  rw [h9, h21, hc4]
  rfl

/-- The masked weights. -/
private theorem mid_v23 (W : Valuation τ sig (Elt F)) (x1 : (⟨S4x240x320x8, .f32⟩ : BufTy).Contents (Elt F)) (I : (⟨S4x240x320x8x3, .i32⟩ : BufTy).Contents (Elt F))
    (h9 : W (Proc.devRef .tc main_v9) = val_main_v9 (F := F) I)
    (h1 : W (Proc.devRef .tc main_v1) = val_main_v1 (F := F) x1) :
    mid[W] (Proc.devRef .tc main_v23) = val_main_v24 (F := F) x1 I := by
  after_results_simp
  (try simp only [TRef.ofBuf, TRef.toBuf, cast_eq])
  rw [h9, h1]
  rfl

/-- The one-per-valid-sample array. -/
private theorem mid_v24 (W : Valuation τ sig (Elt F)) (I : (⟨S4x240x320x8x3, .i32⟩ : BufTy).Contents (Elt F))
    (h9 : W (Proc.devRef .tc main_v9) = val_main_v9 (F := F) I) :
    mid[W] (Proc.devRef .tc main_v24) = cnt (F := F) I := by
  after_results_simp
  (try simp only [TRef.ofBuf, TRef.toBuf, cast_eq])
  rw [h9]

/-- The flattened values pass through. -/
private theorem mid_v0 (W : Valuation τ sig (Elt F)) (x0 : (⟨S4x240x320x8, .f32⟩ : BufTy).Contents (Elt F))
    (h0 : W (Proc.devRef .tc main_v0) = val_main_v0 (F := F) x0) :
    mid[W] (Proc.devRef .tc main_v0) = val_main_v0 (F := F) x0 := by
  after_results_simp
  exact h0

/-! ### The last stretch, cut after its three-row concatenate -/

/-- The last stretch's first six operations: the three rows of the update array and their concatenate. -/
private abbrev lastA : List (HloOp τ sig (Elt F)) :=
  [ StableHlo.unary main_v24 main_v25 (id : (⟨S2457600, .f32⟩ : BufTy).Contents (Elt F) → (⟨S2457600, .f32⟩ : BufTy).Contents (Elt F)),
    StableHlo.binary main_v23 main_v0 main_v26 (mulf : (⟨S2457600, .f32⟩ : BufTy).Contents (Elt F) → (⟨S2457600, .f32⟩ : BufTy).Contents (Elt F) → (⟨S2457600, .f32⟩ : BufTy).Contents (Elt F)),
    StableHlo.unary main_v23 main_v27 (broadcastInDim S1x2457600 ![1] bcast_S2457600_S1x2457600_1 : (⟨S2457600, .f32⟩ : BufTy).Contents (Elt F) → (⟨S1x2457600, .f32⟩ : BufTy).Contents (Elt F)),
    StableHlo.unary main_v26 main_v28 (broadcastInDim S1x2457600 ![1] bcast_S2457600_S1x2457600_1 : (⟨S2457600, .f32⟩ : BufTy).Contents (Elt F) → (⟨S1x2457600, .f32⟩ : BufTy).Contents (Elt F)),
    StableHlo.unary main_v25 main_v29 (broadcastInDim S1x2457600 ![1] bcast_S2457600_S1x2457600_1 : (⟨S2457600, .f32⟩ : BufTy).Contents (Elt F) → (⟨S1x2457600, .f32⟩ : BufTy).Contents (Elt F)),
    StableHlo.nary ![main_v27, main_v28, main_v29] main_v30 (fun u => concatenate S3x2457600 0 [⟨S1x2457600, u 0⟩, ⟨S1x2457600, u 1⟩, ⟨S1x2457600, u 2⟩] concatenates_S1x2457600_S1x2457600_S1x2457600_S3x2457600_d0) ]
/-- The rest of the last stretch: the voxel column, the scatter and its rows. -/
private abbrev lastB : List (HloOp τ sig (Elt F)) :=
  [ StableHlo.nullary main_cst_7 (constant S_ .f32 0x00000000#32),
    StableHlo.unary main_cst_7 main_v31 (broadcastInDim S3x16777216 ![] bcast_S_S3x16777216 : (⟨S_, .f32⟩ : BufTy).Contents (Elt F) → (⟨S3x16777216, .f32⟩ : BufTy).Contents (Elt F)),
    StableHlo.nullary main_c_8 (constantI S_ 32 0#32),
    StableHlo.unary main_c_8 main_v32 (broadcastInDim S2457600 ![] bcast_S_S2457600 : (⟨S_, .i32⟩ : BufTy).Contents (Elt F) → (⟨S2457600, .i32⟩ : BufTy).Contents (Elt F)),
    StableHlo.binary main_v22 main_v32 main_v33 (cmpi .slt : (⟨S2457600, .i32⟩ : BufTy).Contents (Elt F) → (⟨S2457600, .i32⟩ : BufTy).Contents (Elt F) → (⟨S2457600, .i1⟩ : BufTy).Contents (Elt F)),
    StableHlo.nullary main_c_9 (constantI S_ 32 16777216#32),
    StableHlo.unary main_c_9 main_v34 (broadcastInDim S2457600 ![] bcast_S_S2457600 : (⟨S_, .i32⟩ : BufTy).Contents (Elt F) → (⟨S2457600, .i32⟩ : BufTy).Contents (Elt F)),
    StableHlo.binary main_v22 main_v34 main_v35 (addi : (⟨S2457600, .i32⟩ : BufTy).Contents (Elt F) → (⟨S2457600, .i32⟩ : BufTy).Contents (Elt F) → (⟨S2457600, .i32⟩ : BufTy).Contents (Elt F)),
    StableHlo.ternary main_v33 main_v35 main_v22 main_v36 (select : (⟨S2457600, .i1⟩ : BufTy).Contents (Elt F) → (⟨S2457600, .i32⟩ : BufTy).Contents (Elt F) → (⟨S2457600, .i32⟩ : BufTy).Contents (Elt F) → (⟨S2457600, .i32⟩ : BufTy).Contents (Elt F)),
    StableHlo.unary main_v36 main_v37 (broadcastInDim S2457600x1 ![0] bcast_S2457600_S2457600x1_0 : (⟨S2457600, .i32⟩ : BufTy).Contents (Elt F) → (⟨S2457600x1, .i32⟩ : BufTy).Contents (Elt F)),
    StableHlo.ternary main_v31 main_v37 main_v30 main_v38 ((fun x i u => Host.scatterAdd scatter_S3x16777216_S2457600x1_S3x2457600_0_1_1_1 x i u) : (⟨S3x16777216, .f32⟩ : BufTy).Contents (Elt F) → (⟨S2457600x1, .i32⟩ : BufTy).Contents (Elt F) → (⟨S3x2457600, .f32⟩ : BufTy).Contents (Elt F) → (⟨S3x16777216, .f32⟩ : BufTy).Contents (Elt F)),
    StableHlo.unary main_v38 main_v39 ((extractStridedSlice S1x16777216 ![0, 0] · slices_S3x16777216_S1x16777216_0_0) : (⟨S3x16777216, .f32⟩ : BufTy).Contents (Elt F) → (⟨S1x16777216, .f32⟩ : BufTy).Contents (Elt F)),
    StableHlo.reshape main_v39 main_v40 rfl shapeCasts_S1x16777216_S16777216,
    StableHlo.reshape main_v40 main_v41 rfl shapeCasts_S16777216_S256x256x256,
    StableHlo.unary main_v38 main_v42 ((extractStridedSlice S1x16777216 ![1, 0] · slices_S3x16777216_S1x16777216_1_0) : (⟨S3x16777216, .f32⟩ : BufTy).Contents (Elt F) → (⟨S1x16777216, .f32⟩ : BufTy).Contents (Elt F)),
    StableHlo.reshape main_v42 main_v43 rfl shapeCasts_S1x16777216_S16777216,
    StableHlo.reshape main_v43 main_v44 rfl shapeCasts_S16777216_S256x256x256,
    StableHlo.unary main_v38 main_v45 ((extractStridedSlice S1x16777216 ![2, 0] · slices_S3x16777216_S1x16777216_2_0) : (⟨S3x16777216, .f32⟩ : BufTy).Contents (Elt F) → (⟨S1x16777216, .f32⟩ : BufTy).Contents (Elt F)),
    StableHlo.reshape main_v45 main_v46 rfl shapeCasts_S1x16777216_S16777216,
    StableHlo.reshape main_v46 main_v47 rfl shapeCasts_S16777216_S256x256x256,
    StableHlo.unary main_arg3 main_v48_0 id,
    StableHlo.unary main_arg4 main_v48_1 id ]
private theorem hostOps0_6_eq : (hostOps0_6 : List (HloOp τ sig (Elt F))) = lastA ++ lastB := rfl

/-- The three components of a family of three given by its components. -/
private theorem cons3_at0 {α : Fin 3 → Type} (a : α 0) (p : (i : Fin 2) → α i.succ) :
    (Fin.cons a p : (i : Fin 3) → α i) 0 = a := rfl
private theorem cons3_at1 {α : Fin 3 → Type} (a : α 0) (b : α 1) (q : (i : Fin 1) → α i.succ.succ) :
    (Fin.cons a (Fin.cons (α := fun i : Fin 2 => α i.succ) b q) : (i : Fin 3) → α i) 1 = b := rfl
private theorem cons3_at2 {α : Fin 3 → Type} (a : α 0) (b : α 1) (c : α 2) (r : (i : Fin 0) → α i.succ.succ.succ) :
    (Fin.cons a (Fin.cons (α := fun i : Fin 2 => α i.succ) b (Fin.cons (α := fun i : Fin 1 => α i.succ.succ) c r)) : (i : Fin 3) → α i) 2 = c := rfl

/-- The update array. -/
private theorem a_v30 (W : Valuation τ sig (Elt F)) (x0 x1 : (⟨S4x240x320x8, .f32⟩ : BufTy).Contents (Elt F)) (I : (⟨S4x240x320x8x3, .i32⟩ : BufTy).Contents (Elt F))
    (h23 : W (Proc.devRef .tc main_v23) = val_main_v24 (F := F) x1 I)
    (h0 : W (Proc.devRef .tc main_v0) = val_main_v0 (F := F) x0)
    (h24 : W (Proc.devRef .tc main_v24) = cnt (F := F) I) :
    after (lastA (F := F)) W (Proc.devRef .tc main_v30) = upd (F := F) x0 x1 I := by
  after_results3
  rw [h23, h0, h24]
  -- the concatenate of a family given by its three components is the concatenate of the components
  have key : ∀ (P Q R P' Q' R' : (⟨S1x2457600, .f32⟩ : BufTy).Contents (Elt F)), P = P' → Q = Q' → R = R' →
      concatenate S3x2457600 0 [⟨S1x2457600, P⟩, ⟨S1x2457600, Q⟩, ⟨S1x2457600, R⟩]
          concatenates_S1x2457600_S1x2457600_S1x2457600_S3x2457600_d0
        = concatenate S3x2457600 0 [⟨S1x2457600, P'⟩, ⟨S1x2457600, Q'⟩, ⟨S1x2457600, R'⟩]
          concatenates_S1x2457600_S1x2457600_S1x2457600_S3x2457600_d0 := by
    intro P Q R P' Q' R' e1 e2 e3
    rw [e1, e2, e3]
  unfold upd
  exact key _ _ _ _ _ _ (cons3_at0 _ _) (cons3_at1 _ _ _) (cons3_at2 _ _ _ _)

private theorem a_v22 (W : Valuation τ sig (Elt F)) (I : (⟨S4x240x320x8x3, .i32⟩ : BufTy).Contents (Elt F))
    (h22 : W (Proc.devRef .tc main_v22) = val_main_v23 (F := F) I) :
    after (lastA (F := F)) W (Proc.devRef .tc main_v22) = val_main_v23 (F := F) I := by
  after_results_simp
  exact h22

set_option maxRecDepth 16384 in
set_option maxHeartbeats 4000000 in
/-- Row 0 of the scatter, flattened and cut into the volume's shape, from contents holding the update array and the
    routed word. -/
private theorem b_v41 (W : Valuation τ sig (Elt F)) (x0 x1 : (⟨S4x240x320x8, .f32⟩ : BufTy).Contents (Elt F)) (I : (⟨S4x240x320x8x3, .i32⟩ : BufTy).Contents (Elt F))
    (h30 : W (Proc.devRef .tc main_v30) = upd (F := F) x0 x1 I)
    (h22 : W (Proc.devRef .tc main_v22) = val_main_v23 (F := F) I) :
    after (lastB (F := F)) W (Proc.devRef .tc main_v41)
      = shapeCast _ (shapeCast _ (extractStridedSlice S1x16777216 ![0, 0] (buf (F := F) x0 x1 I)
          slices_S3x16777216_S1x16777216_0_0) shapeCasts_S1x16777216_S16777216) shapeCasts_S16777216_S256x256x256 := by
  after_results_simp
  rw [h22, h30]
  rfl

set_option maxRecDepth 16384 in
set_option maxHeartbeats 4000000 in
/-- Row 1 of the scatter, flattened and cut into the volume's shape, from contents holding the update array and the
    routed word. -/
private theorem b_v44 (W : Valuation τ sig (Elt F)) (x0 x1 : (⟨S4x240x320x8, .f32⟩ : BufTy).Contents (Elt F)) (I : (⟨S4x240x320x8x3, .i32⟩ : BufTy).Contents (Elt F))
    (h30 : W (Proc.devRef .tc main_v30) = upd (F := F) x0 x1 I)
    (h22 : W (Proc.devRef .tc main_v22) = val_main_v23 (F := F) I) :
    after (lastB (F := F)) W (Proc.devRef .tc main_v44)
      = shapeCast _ (shapeCast _ (extractStridedSlice S1x16777216 ![1, 0] (buf (F := F) x0 x1 I)
          slices_S3x16777216_S1x16777216_1_0) shapeCasts_S1x16777216_S16777216) shapeCasts_S16777216_S256x256x256 := by
  after_results_simp
  rw [h22, h30]
  rfl

set_option maxRecDepth 16384 in
set_option maxHeartbeats 4000000 in
/-- Row 2 of the scatter, flattened and cut into the volume's shape, from contents holding the update array and the
    routed word. -/
private theorem b_v47 (W : Valuation τ sig (Elt F)) (x0 x1 : (⟨S4x240x320x8, .f32⟩ : BufTy).Contents (Elt F)) (I : (⟨S4x240x320x8x3, .i32⟩ : BufTy).Contents (Elt F))
    (h30 : W (Proc.devRef .tc main_v30) = upd (F := F) x0 x1 I)
    (h22 : W (Proc.devRef .tc main_v22) = val_main_v23 (F := F) I) :
    after (lastB (F := F)) W (Proc.devRef .tc main_v47)
      = shapeCast _ (shapeCast _ (extractStridedSlice S1x16777216 ![2, 0] (buf (F := F) x0 x1 I)
          slices_S3x16777216_S1x16777216_2_0) shapeCasts_S1x16777216_S16777216) shapeCasts_S16777216_S256x256x256 := by
  after_results_simp
  rw [h22, h30]
  rfl

/-! ### The seven stretches end to end -/

local notation "entry[" V "]" => after (lastB (F := F)) (after (lastA (F := F)) mid[after (hostOps0 (F := F)) V])

/-- The contents when the region is entered: stretch after stretch. -/
private theorem after_host (V : Valuation τ sig (Elt F)) :
    after (List.flatten [hostOps0 (F := F), hostOps0_1, hostOps0_2, hostOps0_3, hostOps0_4, hostOps0_5, hostOps0_6]) V = entry[V] := by
  rw [hostOps0_6_eq]
  simp only [List.flatten_cons, List.flatten_nil, List.append_nil, after_append']

/-- The update array and the routed word, after the concatenate. -/
private theorem rows (V : Valuation τ sig (Elt F)) (x0 x1 : (⟨S4x240x320x8, .f32⟩ : BufTy).Contents (Elt F)) (I : (⟨S4x240x320x8x3, .i32⟩ : BufTy).Contents (Elt F))
    (h_arg0 : V (Proc.devRef .tc main_arg0) = x0) (h_arg1 : V (Proc.devRef .tc main_arg1) = x1)
    (h_arg2 : V (Proc.devRef .tc main_arg2) = I) :
    after (lastA (F := F)) mid[after (hostOps0 (F := F)) V] (Proc.devRef .tc main_v30) = upd (F := F) x0 x1 I
    ∧ after (lastA (F := F)) mid[after (hostOps0 (F := F)) V] (Proc.devRef .tc main_v22) = val_main_v23 (F := F) I := by
  have f_v0 := s0_v0 V x0 h_arg0
  have f_v1 := s0_v1 V x1 h_arg1
  have f_v9 := s0_v9 V I h_arg2
  have f_v21 := s0_v21 V I h_arg2
  have f_c4 := s0_c4 V
  have g_v22 := mid_v22 (after (hostOps0 (F := F)) V) I f_v9 f_v21 f_c4
  have g_v23 := mid_v23 (after (hostOps0 (F := F)) V) x1 I f_v9 f_v1
  have g_v24 := mid_v24 (after (hostOps0 (F := F)) V) I f_v9
  have g_v0 := mid_v0 (after (hostOps0 (F := F)) V) x0 f_v0
  exact ⟨a_v30 _ x0 x1 I g_v23 g_v0 g_v24, a_v22 _ I g_v22⟩

/-- Row 0 after all seven stretches, from contents `V` holding the three arguments. -/
private theorem host_v41 (V : Valuation τ sig (Elt F)) (x0 x1 : (⟨S4x240x320x8, .f32⟩ : BufTy).Contents (Elt F)) (I : (⟨S4x240x320x8x3, .i32⟩ : BufTy).Contents (Elt F))
    (h_arg0 : V (Proc.devRef .tc main_arg0) = x0) (h_arg1 : V (Proc.devRef .tc main_arg1) = x1)
    (h_arg2 : V (Proc.devRef .tc main_arg2) = I) :
    after (List.flatten [hostOps0 (F := F), hostOps0_1, hostOps0_2, hostOps0_3, hostOps0_4, hostOps0_5, hostOps0_6]) V (Proc.devRef .tc main_v41)
      = shapeCast _ (shapeCast _ (extractStridedSlice S1x16777216 ![0, 0] (buf (F := F) x0 x1 I)
          slices_S3x16777216_S1x16777216_0_0) shapeCasts_S1x16777216_S16777216) shapeCasts_S16777216_S256x256x256 := by
  rw [after_host]
  obtain ⟨r30, r22⟩ := rows V x0 x1 I h_arg0 h_arg1 h_arg2
  exact b_v41 _ x0 x1 I r30 r22

/-- Row 1 after all seven stretches, from contents `V` holding the three arguments. -/
private theorem host_v44 (V : Valuation τ sig (Elt F)) (x0 x1 : (⟨S4x240x320x8, .f32⟩ : BufTy).Contents (Elt F)) (I : (⟨S4x240x320x8x3, .i32⟩ : BufTy).Contents (Elt F))
    (h_arg0 : V (Proc.devRef .tc main_arg0) = x0) (h_arg1 : V (Proc.devRef .tc main_arg1) = x1)
    (h_arg2 : V (Proc.devRef .tc main_arg2) = I) :
    after (List.flatten [hostOps0 (F := F), hostOps0_1, hostOps0_2, hostOps0_3, hostOps0_4, hostOps0_5, hostOps0_6]) V (Proc.devRef .tc main_v44)
      = shapeCast _ (shapeCast _ (extractStridedSlice S1x16777216 ![1, 0] (buf (F := F) x0 x1 I)
          slices_S3x16777216_S1x16777216_1_0) shapeCasts_S1x16777216_S16777216) shapeCasts_S16777216_S256x256x256 := by
  rw [after_host]
  obtain ⟨r30, r22⟩ := rows V x0 x1 I h_arg0 h_arg1 h_arg2
  exact b_v44 _ x0 x1 I r30 r22

/-- Row 2 after all seven stretches, from contents `V` holding the three arguments. -/
private theorem host_v47 (V : Valuation τ sig (Elt F)) (x0 x1 : (⟨S4x240x320x8, .f32⟩ : BufTy).Contents (Elt F)) (I : (⟨S4x240x320x8x3, .i32⟩ : BufTy).Contents (Elt F))
    (h_arg0 : V (Proc.devRef .tc main_arg0) = x0) (h_arg1 : V (Proc.devRef .tc main_arg1) = x1)
    (h_arg2 : V (Proc.devRef .tc main_arg2) = I) :
    after (List.flatten [hostOps0 (F := F), hostOps0_1, hostOps0_2, hostOps0_3, hostOps0_4, hostOps0_5, hostOps0_6]) V (Proc.devRef .tc main_v47)
      = shapeCast _ (shapeCast _ (extractStridedSlice S1x16777216 ![2, 0] (buf (F := F) x0 x1 I)
          slices_S3x16777216_S1x16777216_2_0) shapeCasts_S1x16777216_S16777216) shapeCasts_S16777216_S256x256x256 := by
  rw [after_host]
  obtain ⟨r30, r22⟩ := rows V x0 x1 I h_arg0 h_arg1 h_arg2
  exact b_v47 _ x0 x1 I r30 r22

end Host

variable (m : (ℓ : Loc nD τ sig) → Buf (Elt F) ℓ)

/-- The weight table handed to the region: row 0. -/
theorem V_v41_eq (c : Dev nD) :
    (KF.V m c main_v41 : (⟨S256x256x256, .f32⟩ : BufTy).Contents (Elt F))
      = shapeCast _ (shapeCast _ (extractStridedSlice S1x16777216 ![0, 0]
          (buf (m ((c : Thread nD τ).loc main_arg0)) (m ((c : Thread nD τ).loc main_arg1)) (m ((c : Thread nD τ).loc main_arg2)))
          slices_S3x16777216_S1x16777216_0_0) shapeCasts_S1x16777216_S16777216) shapeCasts_S16777216_S256x256x256 := by
  exact host_v41 (fun b => m (c, b)) _ _ _ rfl rfl rfl

/-- The weighted-value table: row 1. -/
theorem V_v44_eq (c : Dev nD) :
    (KF.V m c main_v44 : (⟨S256x256x256, .f32⟩ : BufTy).Contents (Elt F))
      = shapeCast _ (shapeCast _ (extractStridedSlice S1x16777216 ![1, 0]
          (buf (m ((c : Thread nD τ).loc main_arg0)) (m ((c : Thread nD τ).loc main_arg1)) (m ((c : Thread nD τ).loc main_arg2)))
          slices_S3x16777216_S1x16777216_1_0) shapeCasts_S1x16777216_S16777216) shapeCasts_S16777216_S256x256x256 := by
  exact host_v44 (fun b => m (c, b)) _ _ _ rfl rfl rfl

/-- The count table: row 2. -/
theorem V_v47_eq (c : Dev nD) :
    (KF.V m c main_v47 : (⟨S256x256x256, .f32⟩ : BufTy).Contents (Elt F))
      = shapeCast _ (shapeCast _ (extractStridedSlice S1x16777216 ![2, 0]
          (buf (m ((c : Thread nD τ).loc main_arg0)) (m ((c : Thread nD τ).loc main_arg1)) (m ((c : Thread nD τ).loc main_arg2)))
          slices_S3x16777216_S1x16777216_2_0) shapeCasts_S1x16777216_S16777216) shapeCasts_S16777216_S256x256x256 := by
  exact host_v47 (fun b => m (c, b)) _ _ _ rfl rfl rfl

end Cert.KernelIdeal.KV

end
-- ==== Proof.KHost.lean ====
/-
  What the kernel's host operations hand the region: the three per-voxel sums of Proof/Spec.lean.

  The three tables are the rows of one accumulating scatter onto zeros (Proof/KHostV.lean). A table read at a voxel is
  its row of the scatter read at the voxel's number; that is the sum over the samples whose column entry lands there of
  the row's entry of the update array. A sample in the volume lands on its own voxel and carries its weight, its
  weight times its value, and a one; a sample outside the volume lands on voxel 0 but carries zero in every row
  (zero times anything is zero), so it adds nothing wherever it lands. What is left is the sum over the samples that
  hit the voxel.
-/
import proofs.«428678_j87033217286587_2_alg».proof.Proof.KFrame
import proofs.«428678_j87033217286587_2_alg».proof.Proof.Spec
import proofs.«428678_j87033217286587_2_alg».proof.Proof.KHostV
import Idealize.ShloMosaic.Lib.Pipeline.Value
import Idealize.ShloMosaic.Lib.StableHlo.Run

noncomputable section

namespace Cert.KernelIdeal.KV

open Idealize.ShloMosaic Idealize.ShloMosaic.TcCoe Idealize.ShloMosaic.ValueIdx Idealize.SL.Sem
open Idealize.ShloMosaic.StableHlo.Predicate
open Cert.KernelIdeal Cert.KernelIdeal.Gen Cert.KernelIdeal.KF
open Cert.ReferenceIdeal.ReadP Cert.Pts Cert.Spec Cert.LibScatter

/-! ## A table read at a voxel is its row of the scatter read at the voxel's number -/

section Rows
variable (B : (⟨S3x16777216, .f32⟩ : BufTy).Contents (Elt Ideal)) (j : S256x256x256.Idx)

/-- Row `r` cut out, flattened and cut into the volume's shape, read at `j`: the table at `(r, lin j)`. -/
theorem row_read (r : Fin 3) (off : Fin 2 → Nat) (h : S3x16777216.Slices off S1x16777216)
    (h0 : off 0 = r.val) (h1 : off 1 = 0) :
    shapeCast S256x256x256 (shapeCast S16777216 (extractStridedSlice S1x16777216 off B h)
      shapeCasts_S1x16777216_S16777216) shapeCasts_S16777216_S256x256x256 j = B (ix2 r (lin j)) := by
  rw [shapeCast_apply _ shapeCasts_S16777216_S256x256x256 j (ix1 (lin j))
        (by rw [Shape.rowMajor_val_one, Shape.rowMajor_val_three]; rfl),
      shapeCast_apply _ shapeCasts_S1x16777216_S16777216 (ix1 (lin j)) (ix2 (0 : Fin 1) (lin j))
        (by rw [Shape.rowMajor_val_two, Shape.rowMajor_val_one]; show 0 * 16777216 + (lin j).val = (lin j).val; omega),
      extractStridedSlice_apply off B h (ix2 (0 : Fin 1) (lin j)) (ix2 r (lin j))
        (fun a => by
          match a with
          | ⟨0, _⟩ => show r.val = off 0 + 0; omega
          | ⟨1, _⟩ => show (lin j).val = off 1 + (lin j).val; omega)]

end Rows

/-! ## A three-row concatenate read at a row -/

section Cat
variable {α : Type} (A B C : S1x2457600.Idx → α)
  (h : Shape.Concatenates [S1x2457600, S1x2457600, S1x2457600] S3x2457600 0) (p : Fin 2457600)

/-- Row 0 of three [1 × n] rows stacked: the first piece. -/
theorem cat3_row0 :
    concatenate S3x2457600 0 [⟨S1x2457600, A⟩, ⟨S1x2457600, B⟩, ⟨S1x2457600, C⟩] h (ix2 (0 : Fin 3) p) = A (ix2 (0 : Fin 1) p) :=
  concatenate_apply_piece (t := S3x2457600) (0 : Fin 2) [⟨S1x2457600, A⟩, ⟨S1x2457600, B⟩, ⟨S1x2457600, C⟩] h (ix2 (0 : Fin 3) p) 0
    (Nat.zero_lt_succ _) S1x2457600 A rfl rfl 0 rfl (ix2 (0 : Fin 1) p)
    (fun b hb => by
      match b with
      | ⟨0, _⟩ => exact absurd rfl hb
      | ⟨1, _⟩ => rfl) rfl

/-- Row 1: the second piece. -/
theorem cat3_row1 :
    concatenate S3x2457600 0 [⟨S1x2457600, A⟩, ⟨S1x2457600, B⟩, ⟨S1x2457600, C⟩] h (ix2 (1 : Fin 3) p) = B (ix2 (0 : Fin 1) p) :=
  concatenate_apply_piece (t := S3x2457600) (0 : Fin 2) [⟨S1x2457600, A⟩, ⟨S1x2457600, B⟩, ⟨S1x2457600, C⟩] h (ix2 (1 : Fin 3) p) 1
    (Nat.succ_lt_succ (Nat.zero_lt_succ _)) S1x2457600 B rfl rfl 1 rfl (ix2 (0 : Fin 1) p)
    (fun b hb => by
      match b with
      | ⟨0, _⟩ => exact absurd rfl hb
      | ⟨1, _⟩ => rfl) rfl

/-- Row 2: the third piece. -/
theorem cat3_row2 :
    concatenate S3x2457600 0 [⟨S1x2457600, A⟩, ⟨S1x2457600, B⟩, ⟨S1x2457600, C⟩] h (ix2 (2 : Fin 3) p) = C (ix2 (0 : Fin 1) p) :=
  concatenate_apply_piece (t := S3x2457600) (0 : Fin 2) [⟨S1x2457600, A⟩, ⟨S1x2457600, B⟩, ⟨S1x2457600, C⟩] h (ix2 (2 : Fin 3) p) 2
    (Nat.succ_lt_succ (Nat.succ_lt_succ (Nat.zero_lt_succ _))) S1x2457600 C rfl rfl 2 rfl (ix2 (0 : Fin 1) p)
    (fun b hb => by
      match b with
      | ⟨0, _⟩ => exact absurd rfl hb
      | ⟨1, _⟩ => rfl) rfl

end Cat

/-! ## The update array read at a row and a sample -/

section Upd
variable (x0 x1 : PtArr) (I : IdxArr)

/-- A vector as a [1 × n] row reads, at (0, p), the vector at `p`. -/
theorem bcastP {α : Type} (v : S2457600.Idx → α) (p : Fin NP) :
    broadcastInDim S1x2457600 ![1] bcast_S2457600_S1x2457600_1 v (ix2 (0 : Fin 1) p) = v (ix1 p) :=
  broadcastInDim_apply _ bcast_S2457600_S1x2457600_1 v _ (ix1 p) (fun a => by
    obtain rfl : a = 0 := Subsingleton.elim _ _
    show p.val = if (2457600 : Nat) = 1 then 0 else p.val
    rw [if_neg (by decide)])

/-- A scalar constant broadcast to the samples reads the constant at every sample. -/
theorem bcast0 (b : BitVec 32) (p : Fin NP) :
    broadcastInDim S2457600 ![] bcast_S_S2457600 (constant (F := Ideal) S_ .f32 b) (ix1 p) = Ideal.ofBits .f32 b :=
  (broadcastInDim_apply _ bcast_S_S2457600 (constant (F := Ideal) S_ .f32 b) (ix1 p) (fun a => a.elim0) (fun a => a.elim0)).trans rfl

/-- The masked weight of sample `p`: its weight in the volume, zero outside. -/
theorem mw_apply (p : Fin NP) : val_main_v24 (F := Ideal) x1 I (ix1 p) = if ok I p then wP x1 p else 0 := by
  have hz : val_main_call2_v1 (F := Ideal) (ix1 p) = 0 := by
    rw [val_main_call2_v1_apply, val_main_call2_v0_apply, val_main_cst_apply]
    exact Ideal.ofBits_zero_f32
  rw [val_main_v24_apply, hz]
  by_cases h : ok I p
  · rw [if_pos h]
    unfold ok at h
    rw [h, select_one]
    rfl
  · rw [if_neg h]
    unfold ok at h
    rw [eq_zero_of_ne_one h, select_zero]

/-- Row 0 at sample `p`: the masked weight. -/
theorem upd_row0 (p : Fin NP) : upd (F := Ideal) x0 x1 I (ix2 (0 : Fin 3) p) = if ok I p then wP x1 p else 0 := by
  unfold upd
  rw [cat3_row0, bcastP]
  exact mw_apply x1 I p

/-- Row 1 at sample `p`: the masked weight times the value. -/
theorem upd_row1 (p : Fin NP) :
    upd (F := Ideal) x0 x1 I (ix2 (1 : Fin 3) p) = if ok I p then wP x1 p * vP x0 p else 0 := by
  unfold upd
  rw [cat3_row1, bcastP, mulf_apply, mw_apply x1 I p]
  by_cases h : ok I p
  · rw [if_pos h, if_pos h]
    rfl
  · rw [if_neg h, if_neg h, zero_mul]

/-- Row 2 at sample `p`: a one in the volume, zero outside. -/
theorem upd_row2 (p : Fin NP) : upd (F := Ideal) x0 x1 I (ix2 (2 : Fin 3) p) = if ok I p then ONE else 0 := by
  unfold upd
  rw [cat3_row2, bcastP, id_eq, select_apply, bcast0, bcast0]
  by_cases h : ok I p
  · rw [if_pos h]
    unfold ok at h
    rw [h, select_one]
    rfl
  · rw [if_neg h]
    unfold ok at h
    rw [eq_zero_of_ne_one h, select_zero]
    exact Ideal.ofBits_zero_f32

/-! ## The scatter read at a row and a voxel -/

/-- Row `r` of the scatter at voxel `i`: the sum, over the samples whose column entry lands on `i`, of row `r` of the
    update array (the table scattered onto is zero). -/
theorem buf_apply (r : Fin 3) (i : Fin NV) :
    buf (F := Ideal) x0 x1 I (ix2 r i)
      = ∑ p : Fin NP, if (if ok I p then tg I p else 0) = i then upd (F := Ideal) x0 x1 I (ix2 r p) else 0 := by
  unfold buf
  rw [scatterAdd_rows_apply _ rfl rfl rfl rfl]
  have hz : broadcastInDim S3x16777216 ![] bcast_S_S3x16777216 (constant (F := Ideal) S_ .f32 0x00000000#32) (ix2 r i)
      = (0 : EReal) := Ideal.ofBits_zero_f32
  rw [hz, zero_add]
  refine Finset.sum_congr rfl (fun p _ => if_congr ?_ rfl rfl)
  rw [land_v63, Option.some.injEq]

/-- A sum over the samples landing on `i` of a payload that is zero outside the volume is the sum over the samples
    that hit `i`. -/
theorem sum_hits (f : Fin NP → EReal) (i : Fin NV) :
    (∑ p : Fin NP, if (if ok I p then tg I p else 0) = i then (if ok I p then f p else 0) else 0)
      = ∑ p : Fin NP, if hits I i p then f p else 0 := by
  refine Finset.sum_congr rfl (fun p _ => ?_)
  by_cases h : ok I p
  · rw [if_pos h, if_pos h]
    by_cases e : tg I p = i
    · rw [if_pos e, if_pos (show hits I i p from ⟨h, e⟩)]
    · rw [if_neg e, if_neg (show ¬ hits I i p from fun hh => e hh.2)]
  · rw [if_neg h, if_neg h, if_neg (show ¬ hits I i p from fun hh => h hh.1)]
    exact ite_self _

end Upd

variable (m : (ℓ : Loc nD τ sig) → Buf (Elt Ideal) ℓ)

/-- The weight cache the region reads: at each voxel the sum of the weights of the samples that hit it. -/
theorem V_v41 (c : Dev nD) (j : S256x256x256.Idx) :
    KF.V m c main_v41 j = Cert.Spec.wsum (m ((c : Thread nD τ).loc main_arg1)) (m ((c : Thread nD τ).loc main_arg2)) (Cert.Spec.lin j) := by
  rw [V_v41_eq (F := Ideal) m c, row_read _ j 0 _ _ rfl rfl, buf_apply]
  simp only [upd_row0]
  exact sum_hits _ _ _

/-- The weighted-value cache: the sum of weight·value over the samples that hit the voxel. -/
theorem V_v44 (c : Dev nD) (j : S256x256x256.Idx) :
    KF.V m c main_v44 j = Cert.Spec.vsum (m ((c : Thread nD τ).loc main_arg0)) (m ((c : Thread nD τ).loc main_arg1)) (m ((c : Thread nD τ).loc main_arg2)) (Cert.Spec.lin j) := by
  rw [V_v44_eq (F := Ideal) m c, row_read _ j 1 _ _ rfl rfl, buf_apply]
  simp only [upd_row1]
  exact sum_hits _ _ _

/-- The count volume: a ONE per sample that hits the voxel. -/
theorem V_v47 (c : Dev nD) (j : S256x256x256.Idx) :
    KF.V m c main_v47 j = Cert.Spec.cnt (m ((c : Thread nD τ).loc main_arg2)) (Cert.Spec.lin j) := by
  rw [V_v47_eq (F := Ideal) m c, row_read _ j 2 _ _ rfl rfl, buf_apply]
  simp only [upd_row2]
  exact sum_hits _ _ _

end Cert.KernelIdeal.KV

end
-- ==== Proof.KBlocks.lean ====
/-
  From the region's blocks to the whole result arrays: each of the 32 grid points writes back rows 8t … 8t+7 of both
  results, so after the run every element of the two result arrays is the kernel's per-voxel expression of the five arrays
  the region read, at that element.
-/
import proofs.«428678_j87033217286587_2_alg».proof.Proof.KFrame
import proofs.«428678_j87033217286587_2_alg».proof.Proof.SpecK
import Idealize.ShloMosaic.Lib.Pipeline.Value
import Idealize.ShloMosaic.Lib.ValueIdx

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KF

variable (m : (ℓ : Loc nD τ sig) → Buf (Elt Ideal) ℓ) (ρ : Dev nD → PrngReg)

/-! ## The body's expressions at one element -/

/-- A volume of extended reals. -/
abbrev Vol : Type := S256x256x256.Idx → EReal

/-- The first result as one function of the five arrays the region reads, element by element. -/
abbrev GV (a0 a1 a2 a3 a4 : Vol) : Vol := fun j => Cert.Spec.kv (a0 j) (a1 j) (a2 j) (a3 j) (a4 j)
/-- The second result: the sum of two of them, element by element. -/
abbrev GW (a1 a2 : Vol) : Vol := fun j => a1 j + a2 j

theorem hz : (![0, 0, 0] : Fin 3 → Nat) = fun _ => 0 := funext fun a => by fin_cases a <;> rfl

/-- The sum stored into the second result, at one element of the block. -/
theorem pay1_apply (x1 x2 : Vec Ideal S8x256x256 .f32) (y : S8x256x256.Idx) : k0_pay1 x1 x2 y = x1 y + x2 y := by
  unfold k0_pay1
  rw [shapeCast_self]
  rfl

/-- The expression stored into the first result, at one element of the block: the per-voxel expression of the five
    loaded elements. -/
theorem pay2_apply (x0 x1 x2 x3 x4 : Vec Ideal S8x256x256 .f32) (y : S8x256x256.Idx) :
    k0_pay2 x0 x1 x2 x3 x4 y = Cert.Spec.kv (x0 y) (x1 y) (x2 y) (x3 y) (x4 y) := by
  unfold k0_pay2 k0_pay1
  simp only [shapeCast_self]
  rfl

/-! ## Where the blocks lie -/

/-- Every window's block at grid point `t` is block `(t, 0, 0)` of its array. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-! ## A block of the per-voxel expression is the expression of the blocks -/

/-- For any five arrays: the per-voxel expression of their blocks at point `t`, at one element of the block, is the
    element of block `t` of the per-voxel expression of the arrays — all six windows have the same block at `t`. -/
theorem blk_kv (a0 a1 a2 a3 a4 : Vol) (t : Fin cfg0.N) (j : S8x256x256.Idx) :
    Cert.Spec.kv (((cfg0.win 0).blk t).view.read (Elt Ideal) a0 j) (((cfg0.win 1).blk t).view.read (Elt Ideal) a1 j)
      (((cfg0.win 2).blk t).view.read (Elt Ideal) a2 j) (((cfg0.win 3).blk t).view.read (Elt Ideal) a3 j)
      (((cfg0.win 4).blk t).view.read (Elt Ideal) a4 j)
    = ((cfg0.win 5).blk t).view.read (Elt Ideal) (GV a0 a1 a2 a3 a4) j := by
  obtain ⟨⟨e00, e01, e02⟩, ⟨e10, e11, e12⟩, ⟨e20, e21, e22⟩, ⟨e30, e31, e32⟩, ⟨e40, e41, e42⟩, ⟨e50, e51, e52⟩, -⟩ := idx_facts t
  show Cert.Spec.kv (a0 (((cfg0.win 0).blk t).view.emb j)) (a1 (((cfg0.win 1).blk t).view.emb j))
      (a2 (((cfg0.win 2).blk t).view.emb j)) (a3 (((cfg0.win 3).blk t).view.emb j)) (a4 (((cfg0.win 4).blk t).view.emb j))
    = Cert.Spec.kv (a0 (((cfg0.win 5).blk t).view.emb j)) (a1 (((cfg0.win 5).blk t).view.emb j))
      (a2 (((cfg0.win 5).blk t).view.emb j)) (a3 (((cfg0.win 5).blk t).view.emb j)) (a4 (((cfg0.win 5).blk t).view.emb j))
  have h0 : ((cfg0.win 0).blk t).view.emb j = ((cfg0.win 5).blk t).view.emb j := by
    funext a; apply Fin.ext
    match a with
    | ⟨0, _⟩ => show win0_0.index t (0 : Fin 3) * 8 + 1 * (j 0).val = win0_5.index t (0 : Fin 3) * 8 + 1 * (j 0).val; omega
    | ⟨1, _⟩ => show win0_0.index t (1 : Fin 3) * 256 + 1 * (j 1).val = win0_5.index t (1 : Fin 3) * 256 + 1 * (j 1).val; omega
    | ⟨2, _⟩ => show win0_0.index t (2 : Fin 3) * 256 + 1 * (j 2).val = win0_5.index t (2 : Fin 3) * 256 + 1 * (j 2).val; omega
  have h1 : ((cfg0.win 1).blk t).view.emb j = ((cfg0.win 5).blk t).view.emb j := by
    funext a; apply Fin.ext
    match a with
    | ⟨0, _⟩ => show win0_1.index t (0 : Fin 3) * 8 + 1 * (j 0).val = win0_5.index t (0 : Fin 3) * 8 + 1 * (j 0).val; omega
    | ⟨1, _⟩ => show win0_1.index t (1 : Fin 3) * 256 + 1 * (j 1).val = win0_5.index t (1 : Fin 3) * 256 + 1 * (j 1).val; omega
    | ⟨2, _⟩ => show win0_1.index t (2 : Fin 3) * 256 + 1 * (j 2).val = win0_5.index t (2 : Fin 3) * 256 + 1 * (j 2).val; omega
  have h2 : ((cfg0.win 2).blk t).view.emb j = ((cfg0.win 5).blk t).view.emb j := by
    funext a; apply Fin.ext
    match a with
    | ⟨0, _⟩ => show win0_2.index t (0 : Fin 3) * 8 + 1 * (j 0).val = win0_5.index t (0 : Fin 3) * 8 + 1 * (j 0).val; omega
    | ⟨1, _⟩ => show win0_2.index t (1 : Fin 3) * 256 + 1 * (j 1).val = win0_5.index t (1 : Fin 3) * 256 + 1 * (j 1).val; omega
    | ⟨2, _⟩ => show win0_2.index t (2 : Fin 3) * 256 + 1 * (j 2).val = win0_5.index t (2 : Fin 3) * 256 + 1 * (j 2).val; omega
  have h3 : ((cfg0.win 3).blk t).view.emb j = ((cfg0.win 5).blk t).view.emb j := by
    funext a; apply Fin.ext
    match a with
    | ⟨0, _⟩ => show win0_3.index t (0 : Fin 3) * 8 + 1 * (j 0).val = win0_5.index t (0 : Fin 3) * 8 + 1 * (j 0).val; omega
    | ⟨1, _⟩ => show win0_3.index t (1 : Fin 3) * 256 + 1 * (j 1).val = win0_5.index t (1 : Fin 3) * 256 + 1 * (j 1).val; omega
    | ⟨2, _⟩ => show win0_3.index t (2 : Fin 3) * 256 + 1 * (j 2).val = win0_5.index t (2 : Fin 3) * 256 + 1 * (j 2).val; omega
  have h4 : ((cfg0.win 4).blk t).view.emb j = ((cfg0.win 5).blk t).view.emb j := by
    funext a; apply Fin.ext
    match a with
    | ⟨0, _⟩ => show win0_4.index t (0 : Fin 3) * 8 + 1 * (j 0).val = win0_5.index t (0 : Fin 3) * 8 + 1 * (j 0).val; omega
    | ⟨1, _⟩ => show win0_4.index t (1 : Fin 3) * 256 + 1 * (j 1).val = win0_5.index t (1 : Fin 3) * 256 + 1 * (j 1).val; omega
    | ⟨2, _⟩ => show win0_4.index t (2 : Fin 3) * 256 + 1 * (j 2).val = win0_5.index t (2 : Fin 3) * 256 + 1 * (j 2).val; omega
  rw [h0, h1, h2, h3, h4]

/-- The same for the sum of two arrays and the second result's window. -/
theorem blk_add (a1 a2 : Vol) (t : Fin cfg0.N) (j : S8x256x256.Idx) :
    @HAdd.hAdd EReal EReal EReal instHAdd (((cfg0.win 1).blk t).view.read (Elt Ideal) a1 j) (((cfg0.win 2).blk t).view.read (Elt Ideal) a2 j)
    = ((cfg0.win 6).blk t).view.read (Elt Ideal) (GW a1 a2) j := by
  obtain ⟨-, ⟨e10, e11, e12⟩, ⟨e20, e21, e22⟩, -, -, -, ⟨e60, e61, e62⟩⟩ := idx_facts t
  show (a1 (((cfg0.win 1).blk t).view.emb j) + a2 (((cfg0.win 2).blk t).view.emb j) : EReal)
    = a1 (((cfg0.win 6).blk t).view.emb j) + a2 (((cfg0.win 6).blk t).view.emb j)
  have h1 : ((cfg0.win 1).blk t).view.emb j = ((cfg0.win 6).blk t).view.emb j := by
    funext a; apply Fin.ext
    match a with
    | ⟨0, _⟩ => show win0_1.index t (0 : Fin 3) * 8 + 1 * (j 0).val = win0_6.index t (0 : Fin 3) * 8 + 1 * (j 0).val; omega
    | ⟨1, _⟩ => show win0_1.index t (1 : Fin 3) * 256 + 1 * (j 1).val = win0_6.index t (1 : Fin 3) * 256 + 1 * (j 1).val; omega
    | ⟨2, _⟩ => show win0_1.index t (2 : Fin 3) * 256 + 1 * (j 2).val = win0_6.index t (2 : Fin 3) * 256 + 1 * (j 2).val; omega
  have h2 : ((cfg0.win 2).blk t).view.emb j = ((cfg0.win 6).blk t).view.emb j := by
    funext a; apply Fin.ext
    match a with
    | ⟨0, _⟩ => show win0_2.index t (0 : Fin 3) * 8 + 1 * (j 0).val = win0_6.index t (0 : Fin 3) * 8 + 1 * (j 0).val; omega
    | ⟨1, _⟩ => show win0_2.index t (1 : Fin 3) * 256 + 1 * (j 1).val = win0_6.index t (1 : Fin 3) * 256 + 1 * (j 1).val; omega
    | ⟨2, _⟩ => show win0_2.index t (2 : Fin 3) * 256 + 1 * (j 2).val = win0_6.index t (2 : Fin 3) * 256 + 1 * (j 2).val; omega
  rw [h1, h2]

/-! ## What a point writes back -/

/-- What point `t` writes back to the first result is block `t` of the per-voxel expression of the five arrays as
    the region finds them. -/
theorem flushed5_eq (c : Dev nD) (t : Fin cfg0.N) :
    (dats m 0 c).flushed 5 t = ((cfg0.win 5).blk t).view.read (Elt Ideal)
      (GV (V m c main_arg3) (V m c main_arg4) (V m c main_v41) (V m c main_v44) (V m c main_v47)) := by
  show (cfg0.win 5).cut (grid0.coords t) ((dats m 0 c).after 5 t) = _
  rw [after0_5]
  unfold out0_5
  rw [View.canon_unit_zero hz]
  simp only [View.ld_unit_zero (S := S8x256x256) hz]
  funext j
  show k0_pay2 (iblk m c 0 t) (iblk m c 1 t) (iblk m c 2 t) (iblk m c 3 t) (iblk m c 4 t) j = _
  refine (pay2_apply (iblk m c 0 t) (iblk m c 1 t) (iblk m c 2 t) (iblk m c 3 t) (iblk m c 4 t) j).trans ?_
  unfold iblk
  exact blk_kv (V m c main_arg3) (V m c main_arg4) (V m c main_v41) (V m c main_v44) (V m c main_v47) t j

/-- What point `t` writes back to the second result is block `t` of the sum of the two arrays as the region finds
    them. -/
theorem flushed6_eq (c : Dev nD) (t : Fin cfg0.N) :
    (dats m 0 c).flushed 6 t = ((cfg0.win 6).blk t).view.read (Elt Ideal) (GW (V m c main_arg4) (V m c main_v41)) := by
  show (cfg0.win 6).cut (grid0.coords t) ((dats m 0 c).after 6 t) = _
  rw [after0_6]
  unfold out0_6
  rw [View.canon_unit_zero hz]
  simp only [View.ld_unit_zero (S := S8x256x256) hz]
  funext j
  show k0_pay1 (iblk m c 1 t) (iblk m c 2 t) j = _
  refine (pay1_apply (iblk m c 1 t) (iblk m c 2 t) j).trans ?_
  unfold iblk
  exact blk_add (V m c main_arg4) (V m c main_v41) t j

/-! ## The blocks cover the arrays -/

/-- An element of the array is in point `t`'s block of window 5 iff each coordinate is in the block's range on its axis. -/
theorem mem_blk5 (t : Fin cfg0.N) (i : S256x256x256.Idx) :
    i ∈ ((cfg0.win 5).blk t).view.set ↔ ∀ a : Fin 3, win0_5.index t a * S8x256x256.size a ≤ (i a).val ∧ (i a).val < win0_5.index t a * S8x256x256.size a + S8x256x256.size a := by
  show i ∈ ((View.whole main_v48_0).slice (win0_5.rect t)).set ↔ _
  rw [View.set_slice_whole, Rect.mem_set_unit]
  exact Iff.rfl

/-- Every element is in some point's block: rows `8t … 8t+7` are point `t`'s, so row `a` is point `a / 8`'s. -/
theorem cover5 (i : S256x256x256.Idx) :
    ∃ t : Fin cfg0.N, (cfg0.win 5).flush t = true ∧ i ∈ ((cfg0.win 5).blk t).view.set := by
  have hi0 : (i 0).val < 256 := (i 0).isLt
  have hi1 : (i 1).val < 256 := (i 1).isLt
  have hi2 : (i 2).val < 256 := (i 2).isLt
  have hN : (i 0).val / 8 < cfg0.N := by show _ < grid0.N; rw [N_0]; omega
  refine ⟨⟨(i 0).val / 8, hN⟩, flush0_5 _, ?_⟩
  obtain ⟨-, -, -, -, -, ⟨e50, e51, e52⟩, ⟨e60, e61, e62⟩⟩ := idx_facts ⟨(i 0).val / 8, hN⟩
  have ht : (⟨(i 0).val / 8, hN⟩ : Fin cfg0.N).val = (i 0).val / 8 := rfl
  rw [mem_blk5]
  intro a
  match a with
  | ⟨0, _⟩ => show win0_5.index _ (0 : Fin 3) * 8 ≤ (i 0).val ∧ (i 0).val < win0_5.index _ (0 : Fin 3) * 8 + 8; omega
  | ⟨1, _⟩ => show win0_5.index _ (1 : Fin 3) * 256 ≤ (i 1).val ∧ (i 1).val < win0_5.index _ (1 : Fin 3) * 256 + 256; omega
  | ⟨2, _⟩ => show win0_5.index _ (2 : Fin 3) * 256 ≤ (i 2).val ∧ (i 2).val < win0_5.index _ (2 : Fin 3) * 256 + 256; omega

/-- An element of the array is in point `t`'s block of window 6 iff each coordinate is in the block's range on its axis. -/
theorem mem_blk6 (t : Fin cfg0.N) (i : S256x256x256.Idx) :
    i ∈ ((cfg0.win 6).blk t).view.set ↔ ∀ a : Fin 3, win0_6.index t a * S8x256x256.size a ≤ (i a).val ∧ (i a).val < win0_6.index t a * S8x256x256.size a + S8x256x256.size a := by
  show i ∈ ((View.whole main_v48_1).slice (win0_6.rect t)).set ↔ _
  rw [View.set_slice_whole, Rect.mem_set_unit]
  exact Iff.rfl

/-- Every element is in some point's block: rows `8t … 8t+7` are point `t`'s, so row `a` is point `a / 8`'s. -/
theorem cover6 (i : S256x256x256.Idx) :
    ∃ t : Fin cfg0.N, (cfg0.win 6).flush t = true ∧ i ∈ ((cfg0.win 6).blk t).view.set := by
  have hi0 : (i 0).val < 256 := (i 0).isLt
  have hi1 : (i 1).val < 256 := (i 1).isLt
  have hi2 : (i 2).val < 256 := (i 2).isLt
  have hN : (i 0).val / 8 < cfg0.N := by show _ < grid0.N; rw [N_0]; omega
  refine ⟨⟨(i 0).val / 8, hN⟩, flush0_6 _, ?_⟩
  obtain ⟨-, -, -, -, -, ⟨e50, e51, e52⟩, ⟨e60, e61, e62⟩⟩ := idx_facts ⟨(i 0).val / 8, hN⟩
  have ht : (⟨(i 0).val / 8, hN⟩ : Fin cfg0.N).val = (i 0).val / 8 := rfl
  rw [mem_blk6]
  intro a
  match a with
  | ⟨0, _⟩ => show win0_6.index _ (0 : Fin 3) * 8 ≤ (i 0).val ∧ (i 0).val < win0_6.index _ (0 : Fin 3) * 8 + 8; omega
  | ⟨1, _⟩ => show win0_6.index _ (1 : Fin 3) * 256 ≤ (i 1).val ∧ (i 1).val < win0_6.index _ (1 : Fin 3) * 256 + 256; omega
  | ⟨2, _⟩ => show win0_6.index _ (2 : Fin 3) * 256 ≤ (i 2).val ∧ (i 2).val < win0_6.index _ (2 : Fin 3) * 256 + 256; omega

/-! ## The arrays after the run -/

/-- The first result after the run: the per-voxel expression everywhere. -/
theorem final5 (c : Dev nD) : (dats m 0 c).arrAt 5 cfg0.N
    = GV (V m c main_arg3) (V m c main_arg4) (V m c main_v41) (V m c main_v44) (V m c main_v47) :=
  (dats m 0 c).arrAt_eq_of_cover 5 _ (fun t _ => flushed5_eq m c t) cover5

/-- The second result after the run: the sum everywhere. -/
theorem final6 (c : Dev nD) : (dats m 0 c).arrAt 6 cfg0.N = GW (V m c main_arg4) (V m c main_v41) :=
  (dats m 0 c).arrAt_eq_of_cover 6 _ (fun t _ => flushed6_eq m c t) cover6

/-- The run, with both result arrays named element by element and the arguments unchanged. -/
theorem kernel_arrays :
    θ_run (defs (F := Ideal)) (onTc (τ := τ) (main (F := Ideal))) ⟨m, fun _ => 0, ρ⟩ (fun r => ∀ c : Dev nD,
      r.2.mem ((c.tc : Thread nD τ).loc main_v48_0)
          = (fun j => Cert.Spec.kv (KF.V m c main_arg3 j) (KF.V m c main_arg4 j) (KF.V m c main_v41 j) (KF.V m c main_v44 j) (KF.V m c main_v47 j))
      ∧ r.2.mem ((c.tc : Thread nD τ).loc main_v48_1) = (fun j => @HAdd.hAdd EReal EReal EReal instHAdd (KF.V m c main_arg4 j) (KF.V m c main_v41 j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (final5 m c), ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩)
    (run_main m ρ)

end Cert.KernelIdeal.KV

end
-- ==== Proof.KValue.lean ====
/-
  The kernel program's run with both results named: the new value volume and the new weight volume of Proof/Spec.lean, as
  functions of the five argument arrays. The region's blocks give each result element as the per-voxel expression of the
  arrays the region read (Proof/KBlocks.lean); those arrays are the old volumes and the three per-voxel sums
  (Proof/KHost.lean); at the sums the expression is the new value (`Spec.kv_eq`).
-/
import proofs.«428678_j87033217286587_2_alg».proof.Proof.KHost
import proofs.«428678_j87033217286587_2_alg».proof.Proof.KBlocks

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.KF

variable (m : (ℓ : Loc nD τ sig) → Buf (Elt Ideal) ℓ) (ρ : Dev nD → PrngReg)

theorem kernel_run :
    θ_run (defs (F := Ideal)) (onTc (τ := τ) (main (F := Ideal))) ⟨m, fun _ => 0, ρ⟩ (fun r => ∀ c : Dev nD,
      r.2.mem ((c.tc : Thread nD τ).loc main_v48_0)
          = Cert.Spec.NewV (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v48_1)
          = Cert.Spec.NewW (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ⟨(h c).1.trans ?_, (h c).2.1.trans ?_, (h c).2.2⟩) (kernel_arrays m ρ)
  · funext j
    rw [V_main_arg3, V_main_arg4, V_v41, V_v44, V_v47]
    show _ = Cert.Spec.newVF _ _ _ _ _ (Cert.Spec.lin j)
    rw [← Cert.Spec.kv_eq, Cert.Spec.unlin_lin]
  · funext j
    rw [V_main_arg4, V_v41]
    show _ = Cert.Spec.newWF _ _ _ (Cert.Spec.lin j)
    unfold Cert.Spec.newWF
    rw [Cert.Spec.unlin_lin]

end Cert.KernelIdeal.KV

end
-- ==== Proof.RefRunH.lean ====
/-
  The reference program's run, stated over the stage functions. @main is one straight line of 139 host operations, cut
  into 8 consecutive pieces; the table module says, for each piece, what the buffers still to be read hold after it, given
  what they held before. Here the pieces are put end to end: the contents after the whole line are the contents after the
  last piece from the contents after the one before, and so on down to the launch contents; the facts of each piece are the
  hypotheses of the next. No operation writes an argument buffer. The run theorem of a straight line then gives the two
  results, at their stage functions of the arguments, and the unchanged arguments, in every final state.
-/
import proofs.«428678_j87033217286587_2_alg».proof.Proof.RefRunT

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.RunT

variable {F : FTy → Type} [FloatOps F]

/-- The contents after two lines run one after the other: the second line's, from the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 8192 in
/-- The line is its eight pieces, in order. -/
theorem ops_eq : (OpsP.ops : List (HloOp τ sig (Elt F)))
    = C1 ++ (C2 ++ (C3 ++ (C4 ++ (C5 ++ (C6 ++ (C7 ++ C8)))))) := rfl

section Pieces

variable (V : Valuation τ sig (Elt F))

-- the contents after the first piece, after the first two, … , after all eight, from `V`
local notation "W₁" => after (C1 (F := F)) V
local notation "W₂" => after (C2 (F := F)) W₁
local notation "W₃" => after (C3 (F := F)) W₂
local notation "W₄" => after (C4 (F := F)) W₃
local notation "W₅" => after (C5 (F := F)) W₄
local notation "W₆" => after (C6 (F := F)) W₅
local notation "W₇" => after (C7 (F := F)) W₆
local notation "W₈" => after (C8 (F := F)) W₇

/-- The contents after the line: piece after piece. -/
theorem after_ops : after (OpsP.ops (F := F)) V = W₈ := by
  rw [ops_eq]
  simp only [after_append']

/-- No piece writes an argument buffer: after all eight each is as in `V` … -/
theorem arg0_after : W₈ (Proc.devRef .tc main_arg0) = V (Proc.devRef .tc main_arg0) := by
  rw [fr8_arg0, fr7_arg0, fr6_arg0, fr5_arg0, fr4_arg0, fr3_arg0, fr2_arg0, fr1_arg0]
theorem arg1_after : W₈ (Proc.devRef .tc main_arg1) = V (Proc.devRef .tc main_arg1) := by
  rw [fr8_arg1, fr7_arg1, fr6_arg1, fr5_arg1, fr4_arg1, fr3_arg1, fr2_arg1, fr1_arg1]
theorem arg2_after : W₈ (Proc.devRef .tc main_arg2) = V (Proc.devRef .tc main_arg2) := by
  rw [fr8_arg2, fr7_arg2, fr6_arg2, fr5_arg2, fr4_arg2, fr3_arg2, fr2_arg2, fr1_arg2]
theorem arg3_after : W₈ (Proc.devRef .tc main_arg3) = V (Proc.devRef .tc main_arg3) := by
  rw [fr8_arg3, fr7_arg3, fr6_arg3, fr5_arg3, fr4_arg3, fr3_arg3, fr2_arg3, fr1_arg3]
theorem arg4_after : W₈ (Proc.devRef .tc main_arg4) = V (Proc.devRef .tc main_arg4) := by
  rw [fr8_arg4, fr7_arg4, fr6_arg4, fr5_arg4, fr4_arg4, fr3_arg4, fr2_arg4, fr1_arg4]
/-- … and so are the two volume arguments after the first four, where the fifth piece reads them. -/
theorem arg3_after₄ : W₄ (Proc.devRef .tc main_arg3) = V (Proc.devRef .tc main_arg3) := by
  rw [fr4_arg3, fr3_arg3, fr2_arg3, fr1_arg3]
theorem arg4_after₄ : W₄ (Proc.devRef .tc main_arg4) = V (Proc.devRef .tc main_arg4) := by
  rw [fr4_arg4, fr3_arg4, fr2_arg4, fr1_arg4]

/-- After the whole line, from any contents `V`: the two results are their stage functions of the arguments' contents
    in `V`, and the arguments are as in `V`. -/
theorem results :
    after (OpsP.ops (F := F)) V (Proc.devRef .tc main_v89)
        = val_main_v89 (F := F) (V (Proc.devRef .tc main_arg0)) (V (Proc.devRef .tc main_arg1))
            (V (Proc.devRef .tc main_arg2)) (V (Proc.devRef .tc main_arg3)) (V (Proc.devRef .tc main_arg4))
    ∧ after (OpsP.ops (F := F)) V (Proc.devRef .tc main_v100)
        = val_main_v100 (F := F) (V (Proc.devRef .tc main_arg1)) (V (Proc.devRef .tc main_arg2)) (V (Proc.devRef .tc main_arg4))
    ∧ after (OpsP.ops (F := F)) V (Proc.devRef .tc main_arg0) = V (Proc.devRef .tc main_arg0)
    ∧ after (OpsP.ops (F := F)) V (Proc.devRef .tc main_arg1) = V (Proc.devRef .tc main_arg1)
    ∧ after (OpsP.ops (F := F)) V (Proc.devRef .tc main_arg2) = V (Proc.devRef .tc main_arg2)
    ∧ after (OpsP.ops (F := F)) V (Proc.devRef .tc main_arg3) = V (Proc.devRef .tc main_arg3)
    ∧ after (OpsP.ops (F := F)) V (Proc.devRef .tc main_arg4) = V (Proc.devRef .tc main_arg4) := by
  rw [after_ops]
  -- piece 1: the in-volume bit, the voxel word and the two flattened float arguments
  have f1_v9 := c1_main_v9 V (h_main_arg2 := rfl)
  have f1_v21 := c1_main_v21 V (h_main_arg2 := rfl)
  have f1_v1 := c1_main_v1 V (h_main_arg1 := rfl)
  have f1_v0 := c1_main_v0 V (h_main_arg0 := rfl)
  -- piece 2: the routed words and the masked weights
  have f2_v22 := c2_main_v22 W₁ (h_main_v9 := f1_v9) (h_main_v21 := f1_v21)
  have f2_v24 := c2_main_v24 W₁ (h_main_v9 := f1_v9) (h_main_v1 := f1_v1)
  have f2_v0 := c2_main_v0 W₁ (h_main_v0 := f1_v0)
  have f2_v23 := c2_main_v23 W₁ (h_main_v9 := f1_v9) (h_main_v21 := f1_v21)
  -- piece 3: the two accumulating scatters
  have f3_v23 := c3_main_v23 W₂ (h_main_v23 := f2_v23)
  have f3_v41 := c3_main_v41 W₂ (h_main_v22 := f2_v22) (h_main_v24 := f2_v24) (h_main_v0 := f2_v0)
  have f3_v32 := c3_main_v32 W₂ (h_main_v22 := f2_v22) (h_main_v24 := f2_v24)
  have f3_v22 := c3_main_v22 W₂ (h_main_v22 := f2_v22)
  -- piece 4: the sums gathered back per sample
  have f4_v23 := c4_main_v23 W₃ (h_main_v23 := f3_v23)
  have f4_v55 := c4_main_v55 W₃ (h_main_v32 := f3_v32) (h_main_v23 := f3_v23)
  have f4_v48 := c4_main_v48 W₃ (h_main_v41 := f3_v41) (h_main_v23 := f3_v23)
  have f4_v22 := c4_main_v22 W₃ (h_main_v22 := f3_v22)
  -- piece 5: the flattened volumes and their values gathered per sample
  have f5_v71 := c5_main_v71 W₄ (h_main_arg4 := arg4_after₄ V) (h_main_v23 := f4_v23)
  have f5_v55 := c5_main_v55 W₄ (h_main_v55 := f4_v55)
  have f5_v64 := c5_main_v64 W₄ (h_main_arg3 := arg3_after₄ V) (h_main_v23 := f4_v23)
  have f5_v48 := c5_main_v48 W₄ (h_main_v48 := f4_v48)
  have f5_v56 := c5_main_v56 W₄ (h_main_arg3 := arg3_after₄ V)
  have f5_v22 := c5_main_v22 W₄ (h_main_v22 := f4_v22)
  have f5_v57 := c5_main_v57 W₄ (h_main_arg4 := arg4_after₄ V)
  -- piece 6: the per-sample new weight and new value
  have f6_v56 := c6_main_v56 W₅ (h_main_v56 := f5_v56)
  have f6_v22 := c6_main_v22 W₅ (h_main_v22 := f5_v22)
  have f6_v78 := c6_main_v78 W₅ (h_main_v71 := f5_v71) (h_main_v64 := f5_v64) (h_main_v48 := f5_v48) (h_main_v55 := f5_v55)
  have f6_v57 := c6_main_v57 W₅ (h_main_v57 := f5_v57)
  have f6_v72 := c6_main_v72 W₅ (h_main_v71 := f5_v71) (h_main_v55 := f5_v55)
  -- piece 7: the overwriting scatter of the values, cut back to the volume
  have f7_v57 := c7_main_v57 W₆ (h_main_v57 := f6_v57)
  have f7_v22 := c7_main_v22 W₆ (h_main_v22 := f6_v22)
  have f7_v72 := c7_main_v72 W₆ (h_main_v72 := f6_v72)
  have f7_v89 := c7_main_v89 W₆ (h_main_v56 := f6_v56) (h_main_v22 := f6_v22) (h_main_v78 := f6_v78)
  -- piece 8: the overwriting scatter of the weights, cut back to the volume
  have f8_v89 := c8_main_v89 W₇ (h_main_v89 := f7_v89)
  have f8_v100 := c8_main_v100 W₇ (h_main_v57 := f7_v57) (h_main_v22 := f7_v22) (h_main_v72 := f7_v72)
  exact ⟨f8_v89, f8_v100, arg0_after V, arg1_after V, arg2_after V, arg3_after V, arg4_after V⟩

end Pieces

set_option maxRecDepth 131072 in
set_option maxHeartbeats 40000000 in
/-- On every device, for any float values, from any memory with zero counters: every weakly fair execution of @main
    terminates with each result at its stage function of the arguments and the arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = Cert.ReferenceIdeal.ReadP.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v100) = Cert.ReferenceIdeal.ReadP.val_main_v100 (F := F) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v89).trans (results (launchContents m c)).1,
        (h c main_v100).trans (results (launchContents m c)).2.1,
        (h c main_arg0).trans (results (launchContents m c)).2.2.1,
        (h c main_arg1).trans (results (launchContents m c)).2.2.2.1,
        (h c main_arg2).trans (results (launchContents m c)).2.2.2.2.1,
        (h c main_arg3).trans (results (launchContents m c)).2.2.2.2.2.1,
        (h c main_arg4).trans (results (launchContents m c)).2.2.2.2.2.2⟩)
    (run_seq OpsP.scopedRefs_eq OpsP.scopedSems_eq defs main (fun _ => OpsP.ops) OpsP.main_eq (fun _ => OpsP.ops_sub) m ρ)

end Cert.ReferenceIdeal.RunH

end
-- ==== Proof.RefValue.lean ====
/-
  The reference program's two results are the new value volume and the new weight volume of Proof/Spec.lean.

  A voxel's slot of either result is read through the reshape and the slice back to the overwriting scatter. At a
  touched voxel every sample that hits it writes one and the same value there: its update is built from the old weight
  and value gathered at its own voxel and from the two sums gathered back from the caches at its voxel's slot, and those
  four depend on the sample only through its voxel. At an untouched voxel no update lands and the flattened old volume
  stays.
-/
import proofs.«428678_j87033217286587_2_alg».proof.Proof.Spec
import Idealize.ShloMosaic.Lib.Pipeline.Value

noncomputable section

namespace Cert.RefValue

open Idealize.ShloMosaic Idealize.ShloMosaic.ValueIdx Idealize.ShloMosaic.StableHlo.Predicate
open Cert.ReferenceIdeal Cert.ReferenceIdeal.ReadP Cert.LibScatter Cert.Pts Cert.Spec

variable (x0 x1 : PtArr) (I : IdxArr) (x3 x4 : VolArr)

/-! ## Indices -/

/-- The rank-1 index at a coordinate, in its two spellings. -/
theorem ofFin_ix1 {n : Nat} (p : Fin n) : Shape.Idx.ofFin p = ix1 p := by
  funext a
  obtain rfl : a = 0 := Subsingleton.elim _ _
  exact Fin.ext rfl

/-- A rank-1 index determines its coordinate. -/
theorem ix1_inj {n : Nat} {a b : Fin n} (h : ix1 a = ix1 b) : a = b := congrFun h (0 : Fin 1)

/-- Reading the result volume at voxel `j` goes, through the reshape and the slice, to slot `lin j` of the table. -/
theorem idx_v88_v89 (j : S256x256x256.Idx) : idx_main_v88 (idx_main_v89 j) = ix1 (up (lin j)) := by
  funext a
  match a with
  | ⟨0, _⟩ => exact Fin.ext rfl

theorem idx_v99_v100 (j : S256x256x256.Idx) : idx_main_v99 (idx_main_v100 j) = ix1 (up (lin j)) := by
  funext a
  match a with
  | ⟨0, _⟩ => exact Fin.ext rfl

/-- Entry `i` of a flattened volume is the volume at voxel `i`. -/
theorem idx_v56 (i : Fin NV) : idx_main_v56 (ix1 i) = unlin i := by
  funext a
  match a with
  | ⟨0, _⟩ => exact Fin.ext rfl
  | ⟨1, _⟩ => exact Fin.ext rfl
  | ⟨2, _⟩ => exact Fin.ext rfl

theorem idx_v57 (i : Fin NV) : idx_main_v57 (ix1 i) = unlin i := by
  funext a
  match a with
  | ⟨0, _⟩ => exact Fin.ext rfl
  | ⟨1, _⟩ => exact Fin.ext rfl
  | ⟨2, _⟩ => exact Fin.ext rfl

/-! ## Where a sample's update lands -/

/-- Sample `p`'s update lands on voxel `i`'s slot exactly when `p` hits `i`: a sample outside the volume goes to the
    spare slot, which is no voxel's. -/
theorem land_iff_hits (i : Fin NV) (p : Fin NP) :
    land 16777217 (val_main_v31 (F := Ideal) I (ixP p)) = some (up i) ↔ hits I i p := by
  rw [land_v31]
  unfold hits
  by_cases hk : ok I p
  · rw [if_pos hk, Option.some.injEq]
    constructor
    · intro e
      exact ⟨hk, up_injective e⟩
    · rintro ⟨_, e⟩
      rw [e]
  · rw [if_neg hk, Option.some.injEq]
    constructor
    · intro e
      exact absurd e.symm (up_ne_spare i)
    · rintro ⟨h, _⟩
      exact absurd h hk

/-! ## The two caches at a voxel's slot -/

/-- A sample in the volume contributes its weight. -/
theorem v24_of_ok (p : Fin NP) (h : ok I p) : val_main_v24 (F := Ideal) x1 I (ix1 p) = wP x1 p := by
  rw [val_main_v24_apply]
  unfold ok at h
  rw [h, select_one]
  rfl

/-- … and its weight·value product. -/
theorem v34_of_ok (p : Fin NP) (h : ok I p) : val_main_v34 (F := Ideal) x0 x1 I (ix1 p) = wP x1 p * vP x0 p := by
  rw [val_main_v34_apply, v24_of_ok x1 I p h]
  rfl

/-- The weight cache at voxel `i`'s slot: zero plus the weights of the samples that hit `i`. -/
theorem v32_at (i : Fin NV) : val_main_v32 (F := Ideal) x1 I (ix1 (up i)) = wsum x1 I i := by
  unfold val_main_v32
  rw [scatterAdd_col_apply _ rfl rfl rfl rfl]
  have h0 : val_main_v25 (F := Ideal) (ix1 (up i)) = 0 := by
    rw [val_main_v25_apply, val_main_cst_6_apply]
    exact ZERO_eq
  rw [h0, zero_add]
  unfold wsum
  refine Finset.sum_congr rfl (fun p _ => ?_)
  by_cases h : hits I i p
  · rw [if_pos ((land_iff_hits I i p).2 h), if_pos h, v24_of_ok x1 I p h.1]
  · rw [if_neg (fun e => h ((land_iff_hits I i p).1 e)), if_neg h]

/-- The value cache at voxel `i`'s slot: zero plus the weight·value products of the samples that hit `i`. -/
theorem v41_at (i : Fin NV) : val_main_v41 (F := Ideal) x0 x1 I (ix1 (up i)) = vsum x0 x1 I i := by
  unfold val_main_v41
  rw [scatterAdd_col_apply _ rfl rfl rfl rfl, v40_eq]
  have h0 : val_main_v33 (F := Ideal) (ix1 (up i)) = 0 := by
    rw [val_main_v33_apply, val_main_cst_9_apply]
    exact ZERO_eq
  rw [h0, zero_add]
  unfold vsum
  refine Finset.sum_congr rfl (fun p _ => ?_)
  by_cases h : hits I i p
  · rw [if_pos ((land_iff_hits I i p).2 h), if_pos h, v34_of_ok x0 x1 I p h.1]
  · rw [if_neg (fun e => h ((land_iff_hits I i p).1 e)), if_neg h]

/-! ## What a sample in the volume gathers -/

/-- From the weight cache: the entry at its voxel's slot. -/
theorem v55_at (p : Fin NP) (h : ok I p) :
    val_main_v55 (F := Ideal) x1 I (ix1 p) = wsum x1 I (tg I p) := by
  unfold val_main_v55
  have e := gather_take gather_S16777217_S2457600x1_S2457600_n_0_n_n_0_1_1 rfl rfl rfl rfl
    (val_main_v32 (F := Ideal) x1 I) (val_main_v54 (F := Ideal) I) p (by omega)
  rw [ofFin_ix1, ofFin_ix1] at e
  have hk : (⟨min (val_main_v54 (F := Ideal) I (ixP p)).toInt.toNat (16777217 - 1), by omega⟩ : Fin 16777217)
      = up (tg I p) :=
    Fin.ext (by
      show min (val_main_v54 (F := Ideal) I (ixP p)).toInt.toNat (16777217 - 1) = (tg I p).val
      rw [v54_eq, take_v47, if_pos h])
  rw [e, hk, v32_at]

/-- From the value cache: the entry at its voxel's slot. -/
theorem v48_at (p : Fin NP) (h : ok I p) :
    val_main_v48 (F := Ideal) x0 x1 I (ix1 p) = vsum x0 x1 I (tg I p) := by
  unfold val_main_v48
  have e := gather_take gather_S16777217_S2457600x1_S2457600_n_0_n_n_0_1_1 rfl rfl rfl rfl
    (val_main_v41 (F := Ideal) x0 x1 I) (val_main_v47 (F := Ideal) I) p (by omega)
  rw [ofFin_ix1, ofFin_ix1] at e
  have hk : (⟨min (val_main_v47 (F := Ideal) I (ixP p)).toInt.toNat (16777217 - 1), by omega⟩ : Fin 16777217)
      = up (tg I p) :=
    Fin.ext (by
      show min (val_main_v47 (F := Ideal) I (ixP p)).toInt.toNat (16777217 - 1) = (tg I p).val
      rw [take_v47, if_pos h])
  rw [e, hk, v41_at]

/-- From the old weight volume: the weight at its voxel. -/
theorem v71_at (p : Fin NP) (h : ok I p) :
    val_main_v71 (F := Ideal) I x4 (ix1 p) = x4 (unlin (tg I p)) := by
  unfold val_main_v71
  have e := gather_take gather_S16777216_S2457600x1_S2457600_n_0_n_n_0_1_1 rfl rfl rfl rfl
    (val_main_v57 (F := Ideal) x4) (val_main_v70 (F := Ideal) I) p (by omega)
  rw [ofFin_ix1, ofFin_ix1] at e
  have hk : (⟨min (val_main_v70 (F := Ideal) I (ixP p)).toInt.toNat (16777216 - 1), by omega⟩ : Fin 16777216)
      = tg I p :=
    Fin.ext (by
      show min (val_main_v70 (F := Ideal) I (ixP p)).toInt.toNat (16777216 - 1) = (tg I p).val
      rw [v70_eq, take_v63, if_pos h])
  rw [e, hk, val_main_v57_apply, idx_v57]

/-- From the old value volume: the value at its voxel. -/
theorem v64_at (p : Fin NP) (h : ok I p) :
    val_main_v64 (F := Ideal) I x3 (ix1 p) = x3 (unlin (tg I p)) := by
  unfold val_main_v64
  have e := gather_take gather_S16777216_S2457600x1_S2457600_n_0_n_n_0_1_1 rfl rfl rfl rfl
    (val_main_v56 (F := Ideal) x3) (val_main_v63 (F := Ideal) I) p (by omega)
  rw [ofFin_ix1, ofFin_ix1] at e
  have hk : (⟨min (val_main_v63 (F := Ideal) I (ixP p)).toInt.toNat (16777216 - 1), by omega⟩ : Fin 16777216)
      = tg I p :=
    Fin.ext (by
      show min (val_main_v63 (F := Ideal) I (ixP p)).toInt.toNat (16777216 - 1) = (tg I p).val
      rw [take_v63, if_pos h])
  rw [e, hk, val_main_v56_apply, idx_v56]

/-! ## The update of a sample that hits voxel `i` -/

theorem v73_eq (j : S2457600.Idx) : val_main_v73 (F := Ideal) j = ZERO := by
  rw [val_main_v73_apply, val_main_cst_20_apply]
  rfl

theorem call3_eq (j : S2457600.Idx) : val_main_call3_v1 (F := Ideal) j = ONE := by
  rw [val_main_call3_v1_apply, val_main_call3_v0_apply, val_main_cst_21_apply]
  rfl

/-- The new weight: the old weight at the voxel plus the voxel's weight sum. -/
theorem v72_at (i : Fin NV) (p : Fin NP) (h : hits I i p) :
    val_main_v72 (F := Ideal) x1 I x4 (ix1 p) = x4 (unlin i) + wsum x1 I i := by
  obtain ⟨hk, rfl⟩ := h
  have e1 := v71_at I x4 p hk
  have e2 := v55_at x1 I p hk
  show (val_main_v71 (F := Ideal) I x4 (ix1 p) + val_main_v55 (F := Ideal) x1 I (ix1 p) : EReal) = _
  rw [e1, e2]

/-- The denominator: the new weight made safe. -/
theorem v75_at (i : Fin NV) (p : Fin NP) (h : hits I i p) :
    val_main_v75 (F := Ideal) x1 I x4 (ix1 p) = dsafe (x4 (unlin i) + wsum x1 I i) := by
  rw [val_main_v75_apply, val_main_v74_apply, v72_at x1 I x4 i p h, v73_eq, call3_eq]
  rfl

/-- The new value. -/
theorem v78_at (i : Fin NV) (p : Fin NP) (h : hits I i p) :
    val_main_v78 (F := Ideal) x0 x1 I x3 x4 (ix1 p)
      = Ideal.div (x4 (unlin i) * x3 (unlin i) + vsum x0 x1 I i) (dsafe (x4 (unlin i) + wsum x1 I i)) := by
  have e5 := v75_at x1 I x4 i p h
  obtain ⟨hk, rfl⟩ := h
  have e1 := v71_at I x4 p hk
  have e2 := v64_at I x3 p hk
  have e3 := v48_at x0 x1 I p hk
  show Ideal.div ((val_main_v71 (F := Ideal) I x4 (ix1 p) * val_main_v64 (F := Ideal) I x3 (ix1 p) : EReal)
      + val_main_v48 (F := Ideal) x0 x1 I (ix1 p)) (val_main_v75 (F := Ideal) x1 I x4 (ix1 p)) = _
  rw [e1, e2, e3, e5]

/-! ## The overwriting scatters -/

/-- The updates that land on voxel `i`'s slot are those of the samples that hit `i`. -/
theorem lands_iff (i : Fin NV) (j' : S2457600.Idx) :
    scatter_S16777217_S2457600x1_S2457600_n_0_0_1.resultIdx? j' (val_main_v31 (F := Ideal) I) = some (ix1 (up i))
      ↔ ∃ p : Fin NP, j' = ix1 p ∧ hits I i p := by
  obtain ⟨p, rfl⟩ : ∃ p : Fin NP, j' = ix1 p := ⟨j' 0, eq_ix1 j'⟩
  rw [resultIdx_col _ rfl rfl rfl rfl, Option.map_eq_some_iff]
  constructor
  · rintro ⟨k, hk, ek⟩
    rw [ix1_inj ek] at hk
    exact ⟨p, rfl, (land_iff_hits I i p).1 hk⟩
  · rintro ⟨q, eq, hq⟩
    rw [← ix1_inj eq] at hq
    exact ⟨up i, (land_iff_hits I i p).2 hq, rfl⟩

/-- The flattened old value volume with a zero appended, at a voxel's slot. -/
theorem v80_at (i : Fin NV) : val_main_v80 (F := Ideal) x3 (ix1 (up i)) = x3 (unlin i) := by
  unfold val_main_v80
  rw [concatenate_pair_apply_left (t := S16777217) (s₁ := S16777216) (s₂ := S1) 0 _ _ _ (ix1 (up i)) rfl (ix1 i) (fun b => match b with
    | ⟨0, _⟩ => rfl), val_main_v56_apply, idx_v56]

/-- The flattened old weight volume with a zero appended, at a voxel's slot. -/
theorem v91_at (i : Fin NV) : val_main_v91 (F := Ideal) x4 (ix1 (up i)) = x4 (unlin i) := by
  unfold val_main_v91
  rw [concatenate_pair_apply_left (t := S16777217) (s₁ := S16777216) (s₂ := S1) 0 _ _ _ (ix1 (up i)) rfl (ix1 i) (fun b => match b with
    | ⟨0, _⟩ => rfl), val_main_v57_apply, idx_v57]

/-- At an untouched voxel the weight sum is empty. -/
theorem wsum_of_not_touched (i : Fin NV) (ht : ¬ touched I i) : wsum x1 I i = 0 := by
  unfold wsum
  exact Finset.sum_eq_zero (fun p _ => if_neg (fun h => ht ⟨p, h⟩))

theorem ref_newV : val_main_v89 (F := Ideal) x0 x1 I x3 x4 = NewV x0 x1 I x3 x4 := by
  funext j
  rw [val_main_v89_apply, val_main_v88_apply, idx_v88_v89]
  show _ = newVF x0 x1 I x3 x4 (lin j)
  generalize lin j = i
  unfold val_main_v87 newVF
  rw [v86_eq]
  by_cases ht : touched I i
  · -- every sample that hits the voxel writes the same new value
    rw [if_pos ht]
    refine scatter_set_of_hit _ _ _ _ _ _ ?_ ?_
    · obtain ⟨p, hp⟩ := ht
      exact ⟨ix1 p, (lands_iff I i _).2 ⟨p, rfl, hp⟩⟩
    · intro j' hj'
      obtain ⟨p, rfl, hp⟩ := (lands_iff I i j').1 hj'
      exact v78_at x0 x1 I x3 x4 i p hp
  · -- nothing lands: the old value stays
    rw [if_neg ht]
    refine (scatter_set_of_miss _ _ _ _ _ ?_).trans (v80_at x3 i)
    intro j' hj'
    obtain ⟨p, _, hp⟩ := (lands_iff I i j').1 hj'
    exact ht ⟨p, hp⟩

theorem ref_newW : val_main_v100 (F := Ideal) x1 I x4 = NewW x1 I x4 := by
  funext j
  rw [val_main_v100_apply, val_main_v99_apply, idx_v99_v100]
  show _ = newWF x1 I x4 (lin j)
  generalize lin j = i
  unfold val_main_v98 newWF
  rw [v97_eq]
  by_cases ht : touched I i
  · -- every sample that hits the voxel writes the same new weight
    refine scatter_set_of_hit _ _ _ _ _ _ ?_ ?_
    · obtain ⟨p, hp⟩ := ht
      exact ⟨ix1 p, (lands_iff I i _).2 ⟨p, rfl, hp⟩⟩
    · intro j' hj'
      obtain ⟨p, rfl, hp⟩ := (lands_iff I i j').1 hj'
      exact v72_at x1 I x4 i p hp
  · -- nothing lands: the old weight stays, and the weight sum is empty
    rw [wsum_of_not_touched x1 I i ht, add_zero]
    refine (scatter_set_of_miss _ _ _ _ _ ?_).trans (v91_at x4 i)
    intro j' hj'
    obtain ⟨p, _, hp⟩ := (lands_iff I i j').1 hj'
    exact ht ⟨p, hp⟩

end Cert.RefValue

end
-- ==== Proof.lean ====
/-
  Scatter-and-merge of weighted samples into a 256³ volume: the kernel program against its reference.

  Each of 2457600 samples carries a value, a weight and three integer coordinates; a sample inside the volume adds its
  weight and its weight·value to its voxel. The reference accumulates both per voxel into tables with a spare slot that
  receives the samples outside, reads the sums back per sample, forms the update (wv·vv + Σ w·v) / dsafe (wv + Σ w) and
  overwrites the touched voxels (all samples of one voxel write one value), leaving the others as they were. The kernel
  program sends the samples outside to voxel 0 with payload zero — adding zero changes nothing —, accumulates weight,
  weight·value and a count as three rows of one scatter, and one region of 32 grid points then rewrites every voxel
  elementwise, deciding "touched" by count > ½; at an untouched voxel its weight sum is zero, so the new weight wv + 0 is wv.
  Over the extended reals both are the same function of the arguments (Proof/Spec.lean): Proof/RefValue.lean reads the
  reference's stages to it, Proof/KHost.lean and Proof/KBlocks.lean the kernel program's host operations and blocks.
  No law beyond commutative-monoid addition and 0·x = 0 is used, so the finiteness precondition is never opened.
  The frames of the two kernel programs are Proof/KFrame.lean and Proof/KFrameBits.lean; the reference's is its run with
  the results dropped. The idealization rewrote nothing, so `preserves` is trivial.
-/
import proofs.«428678_j87033217286587_2_alg».proof.Defs
import proofs.«428678_j87033217286587_2_alg».proof.Proof.KFrameBits
import proofs.«428678_j87033217286587_2_alg».proof.Proof.KFrame
import proofs.«428678_j87033217286587_2_alg».proof.Proof.KValue
import proofs.«428678_j87033217286587_2_alg».proof.Proof.RefRunH
import proofs.«428678_j87033217286587_2_alg».proof.Proof.RefValue
import proofs.«428678_j87033217286587_2_alg».proof.Proof.Gen.Kernel
import proofs.«428678_j87033217286587_2_alg».proof.Proof.Gen.KernelIdeal
import proofs.«428678_j87033217286587_2_alg».proof.Proof.Gen.ReferenceIdeal
import proofs.«428678_j87033217286587_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-! ## The claims -/

theorem frame_k : Cert.frame_Kernel := fun m ρ _ => Cert.Kernel.KF.frame m ρ

theorem frame_ki : Cert.frame_KernelIdeal := fun m ρ _ => Cert.KernelIdeal.KF.frame m ρ

theorem frame_ri : Cert.frame_ReferenceIdeal := fun m ρ _ =>
  (θ_run Cert.ReferenceIdeal.defs _ _).mono (fun _ h c => (h c).2.2) (Cert.ReferenceIdeal.RunH.run (F := Ideal) m ρ)

theorem preserves : Cert.preserves_Kernel_KernelIdeal := trivial

/-- From memories that agree on the arguments both programs end with the new value volume and the new weight volume of
    those arguments. -/
theorem algebraic : Cert.algebraic_KernelIdeal_ReferenceIdeal := by
  intro m ρ m' ρ' _ hagree
  refine ⟨_, _, Cert.KernelIdeal.KV.kernel_run m ρ, ?_⟩
  refine (θ_run Cert.ReferenceIdeal.defs _ _).mono (fun _ h c => ⟨(h c).1.trans ?_, (h c).2.1.trans ?_, (h c).2.2⟩)
    (Cert.ReferenceIdeal.RunH.run (F := Ideal) m' ρ')
  · rw [Cert.RefValue.ref_newV, (hagree c).1, (hagree c).2.1, (hagree c).2.2.1, (hagree c).2.2.2.1, (hagree c).2.2.2.2]
  · rw [Cert.RefValue.ref_newW, (hagree c).2.1, (hagree c).2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
